-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x256 : Shape := ⟨2, ![8192, 256]⟩
abbrev S8192x1 : Shape := ⟨2, ![8192, 1]⟩
abbrev S512x256 : Shape := ⟨2, ![512, 256]⟩
abbrev S512x1 : Shape := ⟨2, ![512, 1]⟩
abbrev S512x512 : Shape := ⟨2, ![512, 512]⟩
abbrev S1x512 : Shape := ⟨2, ![1, 512]⟩
abbrev S512 : Shape := ⟨1, ![512]⟩

abbrev nBuf : Space → Nat
  | .hbm => 41
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S8192, .f32⟩
  | .hbm, ⟨27, _⟩ => ⟨S8192x256, .f32⟩
  | .hbm, ⟨28, _⟩ => ⟨S8192x256, .bf16⟩
  | .hbm, ⟨29, _⟩ => ⟨S8192x1, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_12 : BitVec 32 := 0#32
  let v33 : BitVec 1 := Scalar.cmpi .ne v32 c0_i32_12
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096_S4096_S8192_d0 : Shape.Concatenates [S4096, S4096] S8192 0
  concatenates_S4096x256_S4096x256_S8192x256_d0 : Shape.Concatenates [S4096x256, S4096x256] S8192x256 0
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_v14) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 100
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S8192x256, .f32⟩
  | .hbm, ⟨24, _⟩ => ⟨S256x8192, .f32⟩
  | .hbm, ⟨25, _⟩ => ⟨S8192x8192, .f32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x1, .i32⟩
  | .hbm, ⟨47, _⟩ => ⟨S4096x2, .i32⟩
  | .hbm, ⟨48, _⟩ => ⟨S4096, .f32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096x1, .i32⟩
  | .hbm, ⟨70, _⟩ => ⟨S4096x2, .i32⟩
  | .hbm, ⟨71, _⟩ => ⟨S4096, .f32⟩
  | .hbm, ⟨72, _⟩ => ⟨S8192, .f32⟩
  | .hbm, ⟨73, _⟩ => ⟨S8192x8192, .i32⟩
  | .hbm, ⟨74, _⟩ => ⟨S8192x8192, .i32⟩
  | .hbm, ⟨75, _⟩ => ⟨S_, .i32⟩
  | .hbm, ⟨76, _⟩ => ⟨S8192x8192, .i32⟩
  | .hbm, ⟨77, _⟩ => ⟨S8192x8192, .i32⟩
  | .hbm, ⟨78, _⟩ => ⟨S8192x8192, .i1⟩
  | .hbm, ⟨79, _⟩ => ⟨S8192x8192, .f32⟩
  | .hbm, ⟨80, _⟩ => ⟨S_, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S8192, .f32⟩
  | .hbm, ⟨90, _⟩ => ⟨S_, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call2_v0 : Ref sig .tc := ⟨.hbm, 26, rfl⟩
abbrev main_call2_v1 : Ref sig .tc := ⟨.hbm, 27, rfl⟩
abbrev main_call2_c : Ref sig .tc := ⟨.hbm, 28, rfl⟩
abbrev main_call2_v2 : Ref sig .tc := ⟨.hbm, 29, rfl⟩
abbrev main_call2_v3 : Ref sig .tc := ⟨.hbm, 30, rfl⟩
abbrev main_call2_c_0 : Ref sig .tc := ⟨.hbm, 31, rfl⟩
abbrev main_call2_v4 : Ref sig .tc := ⟨.hbm, 32, rfl⟩
abbrev main_call2_v5 : Ref sig .tc := ⟨.hbm, 33, rfl⟩
abbrev main_call2_c_1 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_c_2 : Ref sig .tc := ⟨.hbm, 38, rfl⟩
abbrev main_call2_v9 : Ref sig .tc := ⟨.hbm, 39, rfl⟩
abbrev main_call2_v10 : Ref sig .tc := ⟨.hbm, 40, rfl⟩
abbrev main_call2_c_3 : Ref sig .tc := ⟨.hbm, 41, rfl⟩
abbrev main_call2_v11 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_call2_v15 : Ref sig .tc := ⟨.hbm, 46, rfl⟩
abbrev main_call2_v16 : Ref sig .tc := ⟨.hbm, 47, rfl⟩
abbrev main_v13 : Ref sig .tc := ⟨.hbm, 48, rfl⟩
abbrev main_call3_v0 : Ref sig .tc := ⟨.hbm, 49, rfl⟩
abbrev main_call3_v1 : Ref sig .tc := ⟨.hbm, 50, rfl⟩
abbrev main_call3_c : Ref sig .tc := ⟨.hbm, 51, rfl⟩
abbrev main_call3_v2 : Ref sig .tc := ⟨.hbm, 52, rfl⟩
abbrev main_call3_v3 : Ref sig .tc := ⟨.hbm, 53, rfl⟩
abbrev main_call3_c_0 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_c_2 : Ref sig .tc := ⟨.hbm, 61, rfl⟩
abbrev main_call3_v9 : Ref sig .tc := ⟨.hbm, 62, rfl⟩
abbrev main_call3_v10 : Ref sig .tc := ⟨.hbm, 63, rfl⟩
abbrev main_call3_c_3 : Ref sig .tc := ⟨.hbm, 64, rfl⟩
abbrev main_call3_v11 : Ref sig .tc := ⟨.hbm, 65, rfl⟩
abbrev main_call3_v12 : Ref sig .tc := ⟨.hbm, 66, rfl⟩
abbrev main_call3_v13 : Ref sig .tc := ⟨.hbm, 67, rfl⟩
abbrev main_call3_v14 : Ref sig .tc := ⟨.hbm, 68, rfl⟩
abbrev main_call3_v15 : Ref sig .tc := ⟨.hbm, 69, rfl⟩
abbrev main_call3_v16 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_c : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_cst_1 : Ref sig .tc := ⟨.hbm, 80, rfl⟩
abbrev main_v22 : Ref sig .tc := ⟨.hbm, 81, rfl⟩
abbrev main_v23 : Ref sig .tc := ⟨.hbm, 82, rfl⟩
abbrev main_cst_2 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_cst_3 : Ref sig .tc := ⟨.hbm, 88, rfl⟩
abbrev main_v28 : Ref sig .tc := ⟨.hbm, 89, rfl⟩
abbrev main_cst_4 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_cst_5 : Ref sig .tc := ⟨.hbm, 96, rfl⟩
abbrev main_v34 : Ref sig .tc := ⟨.hbm, 97, rfl⟩
abbrev main_cst_6 : Ref sig .tc := ⟨.hbm, 98, rfl⟩
abbrev main_v35 : Ref sig .tc := ⟨.hbm, 99, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.FrameKernel.Base.lean ====
/-
  The denominator kernel's frame, first part: what every later module of the frame is stated over.

  The program normalises the rows of two 4096 x 256 matrices on the host, stacks them into one 8192 x 256 matrix
  z (cast to bf16) and launches ONE kernel on a 16 x 16 grid: at point (i, j) the kernel is handed row block i of z
  through its first window and row block j of the SAME array through its second, adds the masked row sums of
  exp(2 * z_i z_j^T) into a 512 x 1 scratch accumulator that it clears at j = 0, and copies the accumulator into the
  512 x 1 output block i at j = 15. Eleven host operations follow the kernel.

  Here: the contents of every buffer when the kernel is entered (the host operations before it, folded), the
  reduction of the whole program to "kernel, then the later host operations", the three control cases of the
  body in closed form over the linear grid point (t mod 16 = 0, = 15, neither), where the output window is idle,
  and the names of the staging and scratch memrefs.
-/
import proofs.«114107_j32023276159237_1_alg».proof.Proof.Gen.Kernel.Launch
import proofs.«114107_j32023276159237_1_alg».proof.Proof.Gen.Kernel.Skeleton
import proofs.«114107_j32023276159237_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the kernel -/

/-- The host operations before the kernel, stretch by stretch: the two row normalisations (each a call of the
    norm function and the five operations after it) and the stacking and cast of z. -/
abbrev prefixOps : List (List (HloOp τ sig (Elt F))) := [hostOps0, hostOps0_1, hostOps0_2, hostOps0_3]

/-- Core `c`'s buffer contents when the kernel is entered, as a valuation: the launch memory after the host
    operations before the kernel. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The whole program reduces to the kernel CONTINUED BY the eleven later host operations, entered with every
    buffer at `V`: the earlier host operations run first, within the buffers that are not the kernel's own. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    ⟨hostOps0_sub, hostOps0_1_sub, hostOps0_2_sub, hostOps0_3_sub⟩
    ⟨hostOps0_fresh, hostOps0_1_fresh, hostOps0_2_fresh, hostOps0_3_fresh⟩ main_chain

/-! ## The windows' blocks -/

/-- Window `w`'s block at point `t`, read off its array as the kernel finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block of z the first window holds at point `t`, at its literal type. -/
abbrev zrow (c : Dev nD) (t : Fin cfg0.N) : Vec F S512x256 .bf16 := iblk m c 0 t
/-- The row block of z the second window holds at point `t` (the columns of the similarity tile), at its literal type. -/
abbrev zcol (c : Dev nD) (t : Fin cfg0.N) : Vec F S512x256 .bf16 := iblk m c 1 t

/-! ## The body's two branch conditions over the linear point -/

/-- "This is the first column block": the condition of the accumulator's reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last column block": the condition of the copy into the output block. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from the last column block the output window is idle (the body stores nothing into it) -/
theorem idle_2 : ∀ t : Fin cfg0.N, ¬condLast (grid0.coords t) → cfg0.idle 2 (grid0.coords t) = true := by decide +kernel
/-- and is not written back; -/
theorem noFlush_2 : ∀ t : Fin cfg0.N, ¬condLast (grid0.coords t) → (cfg0.win 2).flush t = false := by decide +kernel
/-- at the last column block it is live. -/
theorem live_2 : ∀ t : Fin cfg0.N, condLast (grid0.coords t) → cfg0.idle 2 (grid0.coords t) = false := by decide +kernel

/-! ## The memrefs the body is called with -/

abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev accM : Memref sig .tc .vmem S512x1 .f32 := Memref.whole cc0_scratch0

/-- What the launch hands the kernel besides its windows: the accumulator at some contents and the generator register. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.FrameKernel.Runs.lean ====
/-
  The kernel body run once in each of its three control cases, on any whole staging memrefs: from the two row blocks of z
  in the input windows' buffers and the accumulator's contents, to the accumulator at the masked row sums added
  (the body's one arithmetic payload, `k0_pay2`), and in the last column block also the output buffer at that value.
-/
import proofs.«114107_j32023276159237_1_alg».proof.Proof.FrameKernel.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-buffer loads and stores

Every load and store of the body goes through the rectangle of the buffer's own shape at zero offsets: a load reads the
contents, a store made last leaves its value. -/

private theorem hz : (![0, 0] : Fin 2 → ℕ) = fun _ => 0 := funext fun a => by fin_cases a <;> rfl

/-- What a store through the whole-shape rectangle, made LAST, leaves in a column buffer reads as the stored value,
    whatever was there and whatever was stored before. -/
private theorem read_store_col (a : Memref sig .tc .vmem S512x1 .f32) (f : a.view.ty.Contents (Elt F)) (w : Vec F S512x1 .f32)
    (L : List (View.Piece (Elt F) S512x1 .f32)) :
    a.view.read (Elt F) (a.view.writes (Elt F) f
      ((⟨Rect.unit (s := S512x1) ![0, 0] S512x1.size inb_S512x1_S512x1_0_0, w⟩ : View.Piece (Elt F) S512x1 .f32) :: L)) = w := by
  have hcov : ∀ y : S512x1.Idx,
      ∃ p ∈ ((⟨Rect.unit (s := S512x1) ![0, 0] S512x1.size inb_S512x1_S512x1_0_0, w⟩ : View.Piece (Elt F) S512x1 .f32) :: L), y ∈ p.1.set :=
    fun y => ⟨_, List.mem_cons_self, View.mem_set_unit_zero (S := S512x1) hz inb_S512x1_S512x1_0_0 y⟩
  rw [View.read_writes_eq_canon a.view f _ hcov, View.canon_cons_unit_zero (S := S512x1) hz inb_S512x1_S512x1_0_0 w L]

/-- A load of a whole row-block buffer reads its contents. -/
private theorem load_blk (a : Memref sig .tc .vmem S512x256 .bf16) (ha : a.IsWhole) (x : Vec F S512x256 .bf16) :
    View.readAt (Elt F) a.view (Rect.unit (s := S512x256) ![0, 0] S512x256.size inb_S512x256_S512x256_0_0).toLoadRect (ha.unread x) = x := by
  rw [View.readAt_eq_ld, ha.read_unread, View.ld_unit_zero (S := S512x256) hz inb_S512x256_S512x256_0_0 x]

/-- A load of a whole column buffer reads its contents. -/
private theorem load_col (a : Memref sig .tc .vmem S512x1 .f32) (ha : a.IsWhole) (x : Vec F S512x1 .f32) :
    View.readAt (Elt F) a.view (Rect.unit (s := S512x1) ![0, 0] S512x1.size inb_S512x1_S512x1_0_0).toLoadRect (ha.unread x) = x := by
  rw [View.readAt_eq_ld, ha.read_unread, View.ld_unit_zero (S := S512x1) hz inb_S512x1_S512x1_0_0 x]

/-- A load of a whole column buffer after one whole store into it reads the stored value. -/
private theorem load_stored_col (a : Memref sig .tc .vmem S512x1 .f32) (w : Vec F S512x1 .f32) :
    a.view.readCov [(⟨Rect.unit (s := S512x1) ![0, 0] S512x1.size inb_S512x1_S512x1_0_0, w⟩ : View.Piece (Elt F) S512x1 .f32)]
      (Rect.unit (s := S512x1) ![0, 0] S512x1.size inb_S512x1_S512x1_0_0).toLoadRect = w :=
  View.readCov_unit_zero (S := S512x1) a.view hz inb_S512x1_S512x1_0_0 w

set_option maxHeartbeats 1000000 in
/-- FIRST column block (j = 0): the accumulator is cleared (`k0_pay1`, the zero column) and the block's masked row sums
    added to it; the output buffer is not touched. -/
theorem run_first (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole) (arg5 : Memref sig .tc .vmem S512x1 .f32) (harg5 : arg5.IsWhole)
    (hc0 : condFirst i) (hc1 : ¬condLast i) (x0 x1 : Vec F S512x256 .bf16) (xo : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
              ∗ owns (c : Thread nD τ) arg5 fullShare (k0_pay2 i x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; iexact HS
  ipureintro
  sl_unfold_words
  rw [read_store_col, load_blk, load_blk, load_stored_col]

set_option maxHeartbeats 1000000 in
/-- A MIDDLE column block (0 < j < 15): the block's masked row sums are added to what the accumulator held. -/
theorem run_middle (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole) (arg5 : Memref sig .tc .vmem S512x1 .f32) (harg5 : arg5.IsWhole)
    (hc0 : ¬condFirst i) (hc1 : ¬condLast i) (x0 x1 : Vec F S512x256 .bf16) (xo : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
              ∗ owns (c : Thread nD τ) arg5 fullShare (k0_pay2 i x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; iexact HS
  ipureintro
  rw [read_store_col, load_blk, load_blk, load_col]

set_option maxHeartbeats 1000000 in
/-- The LAST column block (j = 15): the block's masked row sums are added and the total copied into the output buffer. -/
theorem run_last (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole) (arg5 : Memref sig .tc .vmem S512x1 .f32) (harg5 : arg5.IsWhole)
    (hc0 : ¬condFirst i) (hc1 : condLast i) (x0 x1 : Vec F S512x256 .bf16) (xs : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
              ∗ owns (c : Thread nD τ) arg4 fullShare (k0_pay2 i x0 x1 xs)
              ∗ owns (c : Thread nD τ) arg5 fullShare (k0_pay2 i x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; iexact H2
    ipureintro
    sl_unfold_words
    rw [read_store_col, load_stored_col, load_blk, load_blk, load_col]
  iexists _; isplitr; swap; iexact HS
  ipureintro
  sl_unfold_words
  rw [read_store_col, load_blk, load_blk, load_col]

end Cert.Kernel.Hand

end
-- ==== Proof.FrameKernel.Body.lean ====
/-
  The kernel's proof data and its body obligation.

  What the accumulator holds after linear grid point n (`accAt`): at a point of the first column block the block's masked
  row sums over the zero column, at any other point those sums added to what the point before left. The region
  invariant carries the accumulator at that value from one point to the next; the output window's staging buffer holds
  the accumulator's value after a last-column point and is idle elsewhere; the input windows' buffers hold their
  row blocks of z. The two input windows read ONE array, so each holds half of it.
-/
import proofs.«114107_j32023276159237_1_alg».proof.Proof.FrameKernel.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE ACCUMULATION: what the scratch accumulator holds after the body at linear point `n`. -/
def accAt (c : Dev nD) : (n : ℕ) → n < cfg0.N → Vec F S512x1 .f32
  | 0, hn => k0_pay2 (grid0.coords ⟨0, hn⟩) (zrow m c ⟨0, hn⟩) (zcol m c ⟨0, hn⟩) (k0_pay1 (F := F))
  | n + 1, hn =>
    if (n + 1) % 16 = 0 then k0_pay2 (grid0.coords ⟨n + 1, hn⟩) (zrow m c ⟨n + 1, hn⟩) (zcol m c ⟨n + 1, hn⟩) (k0_pay1 (F := F))
    else k0_pay2 (grid0.coords ⟨n + 1, hn⟩) (zrow m c ⟨n + 1, hn⟩) (zcol m c ⟨n + 1, hn⟩) (accAt c n (Nat.lt_of_succ_lt hn))

/-- At a point of the first column block the accumulator restarts from the zero column. -/
theorem accAt_first (c : Dev nD) (t : Fin cfg0.N) (h : t.val % 16 = 0) :
    accAt m c t.val t.isLt = k0_pay2 (grid0.coords t) (zrow m c t) (zcol m c t) (k0_pay1 (F := F)) := by
  obtain ⟨n, hn⟩ := t
  cases n with
  | zero => rfl
  | succ k =>
    have h' : (k + 1) % 16 = 0 := h
    show accAt m c (k + 1) hn = _
    rw [accAt, if_pos h']

/-- At any other point it adds to what the point before left. -/
theorem accAt_next (c : Dev nD) (t : Fin cfg0.N) (h : ¬t.val % 16 = 0) :
    accAt m c t.val t.isLt
      = k0_pay2 (grid0.coords t) (zrow m c t) (zcol m c t) (accAt m c (t.val - 1) (Nat.lt_of_le_of_lt (Nat.sub_le _ _) t.isLt)) := by
  obtain ⟨n, hn⟩ := t
  cases n with
  | zero => exact absurd rfl h
  | succ k =>
    have h' : ¬(k + 1) % 16 = 0 := h
    show accAt m c (k + 1) hn = _
    rw [accAt, if_neg h']
    rfl

/-- The region invariant before position `n`: before the first point what the launch hands over (the accumulator at
    anything); afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = accAt m c t.val t.isLt := by dsimp only [dats]

/-! ## The invariant, position by position -/

/-- Before the first point the invariant is what the launch hands over. -/
private theorem PhiS_zero (c : Dev nD) (n : ℕ) (hn : n ≤ cfg0.N) (h : n = 0) : PhiS m c n hn = Pipeline.ΦA spec0 c := by
  subst h; rfl

/-- Before any later point it names the accumulator's contents: what the point before left. -/
private theorem PhiS_pos (c : Dev nD) (n : ℕ) (hn : n ≤ cfg0.N) (h : n ≠ 0) :
    PhiS m c n hn
      = iprop(iprop(owns (c : Thread nD τ) accM fullShare (accAt m c (n - 1) (Nat.lt_of_lt_of_le (Nat.sub_lt (Nat.pos_of_ne_zero h) Nat.one_pos) hn)))
          ∗ (∃ r, prngReg c r)) := by
  cases n with
  | zero => exact absurd rfl h
  | succ k => rfl

/-- At every position the invariant holds the accumulator at SOME contents and the generator register at some state:
    the named contents forgotten. -/
private theorem PhiS_forget (c : Dev nD) (n : ℕ) (hn : n ≤ cfg0.N) :
    PhiS m c n hn ⊢ iprop(iprop((∃ d, owns (c : Thread nD τ) accM fullShare d)) ∗ (∃ r, prngReg c r)) := by
  by_cases h : n = 0
  · rw [PhiS_zero m c n hn h, PhiA0_eq]
  · rw [PhiS_pos m c n hn h]
    iintro ⟨HS, Hg⟩
    isplitl [HS]
    · iexists _; iexact HS
    iexact Hg

/-- The invariant before point `t`, restated at `t.val`. -/
private theorem Phi_castSucc (c : Dev nD) (t : Fin cfg0.N) :
    (dats m 0 c).Φ t.castSucc = PhiS m c t.val (Nat.le_of_lt t.isLt) := by
  dsimp only [dats]; simp only [Fin.coe_castSucc]

/-- The invariant after point `t`: the accumulator at what that point leaves. -/
private theorem Phi_succ (c : Dev nD) (t : Fin cfg0.N) :
    (dats m 0 c).Φ t.succ
      = iprop(iprop(owns (c : Thread nD τ) accM fullShare (accAt m c t.val t.isLt)) ∗ (∃ r, prngReg c r)) := rfl

/-! ## What the input windows' buffers hold -/

/-- The first window's current buffer holds row block i of z at every point, fetched there or not: where no fetch
    happens the block index has not moved since the point before, and the body leaves the buffer as it found it. -/
private theorem before_in_of_0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t := by
  have hblk : ∀ t, dat.blockOf 0 t = iblk m c 0 t := fun t => by
    unfold Dat.blockOf iblk; rw [hA]
  have hkeep : ∀ t, (cfg0.win 0).cut (cfg0.grid.coords t) (dat.after 0 t) = dat.blockOf 0 t := fun t => by
    rw [hafter, hblk]
  rw [dat.before_in_eq_fetched 0 rfl (fun _ => rfl) (fun _ _ _ => rfl) hkeep t d, ← hblk]
  rfl

/-- The second window's current buffer holds row block j of z at every point, likewise. -/
private theorem before_in_of_1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t := by
  have hblk : ∀ t, dat.blockOf 1 t = iblk m c 1 t := fun t => by
    unfold Dat.blockOf iblk; rw [hA]
  have hkeep : ∀ t, (cfg0.win 1).cut (cfg0.grid.coords t) (dat.after 1 t) = dat.blockOf 1 t := fun t => by
    rw [hafter, hblk]
  rw [dat.before_in_eq_fetched 1 rfl (fun _ => rfl) (fun _ _ _ => rfl) hkeep t d, ← hblk]
  rfl

private theorem before_0 (c : Dev nD) (t : Fin cfg0.N) (d) : (dats m 0 c).before 0 t d = iblk m c 0 t :=
  before_in_of_0 m (dats m 0 c) (A_eq m c 0) (after_0 m c) t d
private theorem before_1 (c : Dev nD) (t : Fin cfg0.N) (d) : (dats m 0 c).before 1 t d = iblk m c 1 t :=
  before_in_of_1 m (dats m 0 c) (A_eq m c 1) (after_1 m c) t d

/-! ## The body obligation, at a generic point -/

/-- What the body is called with at point `t`: the invariant, what the core owes, and each window's current buffer
    at what it then holds, -/
private def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
private def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [Phi_succ, Phi_castSucc]
  have hL0 : (dats m 0 c).leavesExact 0 t = owns (c : Thread nD τ) (ms0 t) fullShare (iblk m c 0 t) := by
    unfold Dat.leavesExact; rw [live_0 t, after_0]
  have hL1 : (dats m 0 c).leavesExact 1 t = owns (c : Thread nD τ) (ms1 t) fullShare (iblk m c 1 t) := by
    unfold Dat.leavesExact; rw [live_1 t, after_1]
  rw [hL0, hL1]
  by_cases h0 : t.val % 16 = 0
  · -- the first column block: the accumulator restarts, whatever it held
    have h1 : ¬t.val % 16 = 15 := by omega
    have hF : condFirst (grid0.coords t) := (hcondFirst t).mpr h0
    have hnL : ¬condLast (grid0.coords t) := fun h => h1 ((hcondLast t).mp h)
    rw [Dat.leavesExact_idle (dats m 0 c) 2 t (idle_2 t hnL) (noFlush_2 t hnL), accAt_first m c t h0]
    iintro ⟨HΦ, Ho, ⟨%d0, H0⟩, ⟨%d1, H1⟩, ⟨%d2, H2⟩⟩
    ihave ⟨HS, Hg⟩ := (PhiS_forget m c t.val (Nat.le_of_lt t.isLt)) $$ HΦ
    iapply (run_first c (grid0.coords t) (ms0 t) (hs0 t) (ms1 t) (hs1 t) (ms2 t) (hs2 t) accM (Memref.isWhole_whole _)
      hF hnL (zrow m c t) (zcol m c t) ((dats m 0 c).before 2 t d2) Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexists d2; iexact H2
  · have hz : t.val ≠ 0 := fun h => h0 (by rw [h])
    have hnF : ¬condFirst (grid0.coords t) := fun h => h0 ((hcondFirst t).mp h)
    by_cases h1 : t.val % 16 = 15
    · -- the last column block: the total is also copied into the output window's buffer
      have hL : condLast (grid0.coords t) := (hcondLast t).mpr h1
      have hL2 : (dats m 0 c).leavesExact 2 t = owns (c : Thread nD τ) (ms2 t) fullShare (accAt m c t.val t.isLt) := by
        unfold Dat.leavesExact; rw [live_2 t hL, after_2]
      rw [hL2, accAt_next m c t h0, PhiS_pos m c _ _ hz]
      iintro ⟨⟨HS, Hg⟩, Ho, ⟨%d0, H0⟩, ⟨%d1, H1⟩, ⟨%d2, H2⟩⟩
      iapply (run_last c (grid0.coords t) (ms0 t) (hs0 t) (ms1 t) (hs1 t) (ms2 t) (hs2 t) accM (Memref.isWhole_whole _)
        hnF hL (zrow m c t) (zcol m c t) (accAt m c (t.val - 1) (Nat.lt_of_le_of_lt (Nat.sub_le _ _) t.isLt)) Set.univ _)
      isplitl [H0]; · iexact H0
      isplitl [H1]; · iexact H1
      isplitl [H2]; · iexists ((dats m 0 c).before 2 t d2); iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · -- a middle column block: the sums are added to what the point before left
      have hnL : ¬condLast (grid0.coords t) := fun h => h1 ((hcondLast t).mp h)
      rw [Dat.leavesExact_idle (dats m 0 c) 2 t (idle_2 t hnL) (noFlush_2 t hnL), accAt_next m c t h0, PhiS_pos m c _ _ hz]
      iintro ⟨⟨HS, Hg⟩, Ho, ⟨%d0, H0⟩, ⟨%d1, H1⟩, ⟨%d2, H2⟩⟩
      iapply (run_middle c (grid0.coords t) (ms0 t) (hs0 t) (ms1 t) (hs1 t) (ms2 t) (hs2 t) accM (Memref.isWhole_whole _)
        hnF hnL (zrow m c t) (zcol m c t) ((dats m 0 c).before 2 t d2)
        (accAt m c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back: the accumulator's named contents are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  exact PhiS_forget m c _ _

end Cert.Kernel.Hand

end
-- ==== Proof.FrameKernel.Launch.lean ====
/-
  The launch: from the body obligation to the run of the whole program.

  The kernel's two input windows read ONE array (z, stacked and cast), so the launch hands each of them half of that
  array's buffer and takes the halves back at the exit; the output window's array is held whole. The eleven host
  operations after the kernel then run within the output array and every buffer the kernel does not touch.
  The conclusion names every such buffer after the run: the later host operations applied to the contents at the
  kernel's exit (`Wexit`: the kernel-entry contents with the output array at what the pipeline wrote back).
-/
import proofs.«114107_j32023276159237_1_alg».proof.Proof.FrameKernel.Body
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at the kernel's exit: as at its entry, but the output array at what the pipeline's write-backs
    left in it. -/
def Wexit (c : Dev nD) : Valuation τ sig (Elt F) :=
  Function.update (V0 m c) (Proc.devRef .tc main_v15) ((dats m 0 c).arrAt 2 cfg0.N)

/-- The result buffer after the run: the eleven later host operations from the exit contents. -/
def resultOf (c : Dev nD) : Buf (Elt F) ((c.tc : Thread nD τ).loc main_v23) :=
  StableHlo.after (hostOps1 (F := F)) (Wexit m c) (Proc.devRef .tc main_v23)

/-! ## The launch's split of the arrays -/

/-- The distinct buffers behind the three windows' arrays are two: the stacked matrix and the output column. -/
private theorem arr_img : (Finset.univ.image (Pipeline.arrRef spec0) : Finset (Ref sig .tc)) = {main_v14, main_v15} := by decide

/-- The launch's split: the stacked matrix's buffer, whole at the full share, is halved between the two input windows; the
    output column's buffer goes whole to the output window. -/
private theorem hsplit (c : Dev nD) :
    (Pipeline.arrBufs spec0 c (V m c) : sProp 𝕄) ⊢ (dats m 0 c).arrays ((dats m 0 c).arrAt · 0) := by
  have e0 : ((cfg0.win 0).arr.view.loc (c.tc : Thread nD τ) ↦[(cfg0.win 0).arr.view.set]{(dats m 0 c).share 0} (dats m 0 c).arrAt 0 0 : sProp 𝕄)
      = ((c.tc : Thread nD τ).loc main_v14 ↦{fullShare.left} V m c main_v14) := by
    rw [(arr_whole0 0).set_eq_univ]; rfl
  have e1 : ((cfg0.win 1).arr.view.loc (c.tc : Thread nD τ) ↦[(cfg0.win 1).arr.view.set]{(dats m 0 c).share 1} (dats m 0 c).arrAt 1 0 : sProp 𝕄)
      = ((c.tc : Thread nD τ).loc main_v14 ↦{fullShare.right} V m c main_v14) := by
    rw [(arr_whole0 1).set_eq_univ]; rfl
  have e2 : ((cfg0.win 2).arr.view.loc (c.tc : Thread nD τ) ↦[(cfg0.win 2).arr.view.set]{(dats m 0 c).share 2} (dats m 0 c).arrAt 2 0 : sProp 𝕄)
      = ((c.tc : Thread nD τ).loc main_v15 ↦{fullShare} V m c main_v15) := by
    rw [(arr_whole0 2).set_eq_univ]; rfl
  unfold Pipeline.arrBufs Dat.arrays
  rw [arr_img, bigSep_W0, BI.bigSep_insert (by decide), BI.bigSep_singleton]
  beta_reduce
  rw [e0, e1, e2]
  refine (show (iprop((((c.tc : Thread nD τ).loc main_v14) ↦{fullShare} V m c main_v14)
      ∗ (((c.tc : Thread nD τ).loc main_v15) ↦{fullShare} V m c main_v15)) : sProp 𝕄) ⊢ _ from ?_)
  iintro ⟨H14, H15⟩
  ihave H := (pointsTo_share (PosShare.mem_left_op_right fullShare)).1 $$ H14
  icases H with ⟨Hl, Hr⟩
  isplitl [Hl]; · iexact Hl
  isplitl [Hr]; · iexact Hr
  iexact H15

/-! ## The later host operations -/

/-- The output column is no buffer that bypasses the kernel: it is the output window's array. -/
private theorem v15_not_rest : main_v15 ∉ Pipeline.restRefs sig spec0 := fun h =>
  (Finset.mem_sdiff.mp h).2 (Finset.mem_image.mpr ⟨(2 : Fin 3), Finset.mem_univ _, rfl⟩)

/-- The buffers the later host operations run within: the output column and every buffer that bypasses the kernel. -/
private def tailSet : Finset (DevRef τ sig) :=
  (insert main_v15 (Pipeline.restRefs sig spec0)).map ⟨Proc.devRef (sig := sig) .tc, Proc.devRef_injective _⟩

/-- Held at a valuation they are the output column and the bypassing buffers at it. -/
private theorem held_tailSet (c : Dev nD) (Wv : Valuation τ sig (Elt F)) :
    (StableHlo.held (c.tc : Thread nD τ) (tailSet) Wv : sProp 𝕄)
      = iprop((((c.tc : Thread nD τ).loc main_v15) ↦{fullShare} Wv (Proc.devRef .tc main_v15))
          ∗ bigSep (Pipeline.restRefs sig spec0) fun b => ((c.tc : Thread nD τ).loc b) ↦{fullShare} Wv (Proc.devRef .tc b)) := by
  unfold StableHlo.held tailSet
  rw [bigSep_map, BI.bigSep_insert v15_not_rest]
  rfl

/-- At the exit the output column holds what the write-backs left -/
private theorem Wexit_v15 (c : Dev nD) : Wexit m c (Proc.devRef .tc main_v15) = (dats m 0 c).arrAt 2 cfg0.N := by
  unfold Wexit; exact Function.update_self ..

/-- and every other buffer what it held at the entry. -/
private theorem Wexit_of_ne (c : Dev nD) (b : Ref sig .tc) (hb : b ≠ main_v15) : Wexit m c (Proc.devRef .tc b) = V m c b := by
  unfold Wexit; rw [Function.update_of_ne (StableHlo.devRef_ne_of_ne hb)]

/-- No later host operation touches the stacked matrix z -/
private theorem hostOps1_no14 : ∀ op ∈ (hostOps1 : List (HloOp τ sig (Elt F))), Proc.devRef .tc main_v14 ∉ op.bufs := by
  intro op hop
  simp only [hostOps1, List.mem_cons, List.mem_nil_iff, _root_.or_false] at hop
  rcases hop with rfl | rfl | rfl | rfl | rfl | rfl | rfl | rfl | rfl | rfl | rfl
  all_goals
    simp only [StableHlo.reshape_bufs, StableHlo.nullary_bufs, StableHlo.unary_bufs, StableHlo.binary_bufs, Finset.mem_insert,
      Finset.mem_singleton, (Proc.devRef_injective (τ := τ) (sig := sig) .tc).eq_iff]
    decide

/-- and none writes the output column. -/
private theorem hostOps1_keep15 : ∀ op ∈ (hostOps1 : List (HloOp τ sig (Elt F))), Proc.devRef .tc main_v15 ∉ op.writes := by
  intro op hop
  simp only [hostOps1, List.mem_cons, List.mem_nil_iff, _root_.or_false] at hop
  rcases hop with rfl | rfl | rfl | rfl | rfl | rfl | rfl | rfl | rfl | rfl | rfl
  all_goals
    simp only [StableHlo.reshape_writes, StableHlo.nullary_writes, StableHlo.unary_writes, StableHlo.binary_writes,
      Finset.mem_singleton, (Proc.devRef_injective (τ := τ) (sig := sig) .tc).eq_iff]
    decide

/-- So after them the output column still holds what the write-backs left. -/
private theorem after_v15 (c : Dev nD) :
    StableHlo.after (hostOps1 (F := F)) (Wexit m c) (Proc.devRef .tc main_v15) = (dats m 0 c).arrAt 2 cfg0.N := by
  rw [StableHlo.after_of_forall_not_mem _ _ hostOps1_keep15, Wexit_v15]

/-- Each later host operation runs within the output column and the bypassing buffers. -/
private theorem hostOps1_within : ∀ ops ∈ ([hostOps1] : List (List (HloOp τ sig (Elt F)))), ∀ op ∈ ops, op.bufs ⊆ tailSet := by
  classical
  intro ops hops op hop
  simp only [List.mem_cons, List.mem_nil_iff, _root_.or_false] at hops
  subst hops
  intro b hb
  have hu : b ∈ Pipeline.ucRefs τ sig := Pipeline.sub_ucRefs op ((List.forall_iff_forall_mem.mp hostOps1_sub) op hop) hb
  have h14 : b ≠ Proc.devRef .tc main_v14 := fun e => hostOps1_no14 op hop (e ▸ hb)
  simp only [tailSet, Pipeline.ucRefs, StableHlo.tcRefs, Pipeline.restRefs, Finset.mem_map, Finset.mem_filter, Finset.mem_insert,
    Finset.mem_sdiff, Finset.mem_univ, true_and, Function.Embedding.coeFn_mk] at hu ⊢
  obtain ⟨⟨r, rfl⟩, hr⟩ := hu
  refine ⟨r, ?_, rfl⟩
  by_cases h : r = main_v15
  · exact Or.inl h
  · refine Or.inr ⟨hr, fun hi => ?_⟩
    rw [arr_img, Finset.mem_insert, Finset.mem_singleton] at hi
    rcases hi with rfl | rfl
    · exact h14 rfl
    · exact h rfl

private theorem hostOps1_noalloc : ∀ ops ∈ ([hostOps1] : List (List (HloOp τ sig (Elt F)))), ∀ op ∈ ops, op.fresh = ∅ := by
  intro ops hops op hop
  simp only [List.mem_cons, List.mem_nil_iff, _root_.or_false] at hops
  subst hops
  exact (List.forall_iff_forall_mem.mp hostOps1_fresh) op hop

/-- The output window's array at any position of the write-backs is the output column's buffer, whole at the full share. -/
private theorem arr2_at (c : Dev nD) (n : ℕ) :
    ((cfg0.win 2).arr.view.loc (c.tc : Thread nD τ) ↦[(cfg0.win 2).arr.view.set]{(dats m 0 c).share 2} (dats m 0 c).arrAt 2 n : sProp 𝕄)
      = (((c.tc : Thread nD τ).loc main_v15) ↦{fullShare} (dats m 0 c).arrAt 2 n) := by
  rw [(arr_whole0 2).set_eq_univ]; rfl

/-- The bypassing buffers at the exit contents are the bypassing buffers at the entry contents. -/
private theorem rest_at_exit (c : Dev nD) :
    (bigSep (Pipeline.restRefs sig spec0) fun b => (((c.tc : Thread nD τ).loc b) ↦{fullShare} Wexit m c (Proc.devRef .tc b) : sProp 𝕄))
      = bigSep (Pipeline.restRefs sig spec0) fun b => (((c.tc : Thread nD τ).loc b) ↦{fullShare} V m c b : sProp 𝕄) :=
  bigSep_congr fun b hb => by rw [Wexit_of_ne m c b fun e => v15_not_rest (e ▸ hb)]

set_option backward.isDefEq.respectTransparency.types false in
/-- THE LATER HOST OPERATIONS, from the kernel's exit: the two halves of z stay with the input windows untouched; the output
    column (whole, at what the write-backs left) joins the bypassing buffers, the eleven operations run within them, and
    the output column comes back as it was, the bypassing buffers at the operations' result from the exit contents. -/
private theorem htail (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c
                (fun b => StableHlo.after (hostOps1 (F := F)) (Wexit m c) (Proc.devRef .tc b))) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain [StableHlo.seq (hostOps1 (F := F))]) Q' := by
  have hW : (StableHlo.held (c.tc : Thread nD τ) tailSet (Wexit m c) : sProp 𝕄)
      = iprop((((c.tc : Thread nD τ).loc main_v15) ↦{fullShare} (dats m 0 c).arrAt 2 cfg0.N)
          ∗ bigSep (Pipeline.restRefs sig spec0) fun b => ((c.tc : Thread nD τ).loc b) ↦{fullShare} V m c b) := by
    rw [held_tailSet, Wexit_v15, rest_at_exit]
  have hW' : (StableHlo.held (c.tc : Thread nD τ) tailSet (StableHlo.after (List.flatten [hostOps1 (F := F)]) (Wexit m c)) : sProp 𝕄)
      = iprop((((c.tc : Thread nD τ).loc main_v15) ↦{fullShare} (dats m 0 c).arrAt 2 cfg0.N)
          ∗ bigSep (Pipeline.restRefs sig spec0) fun b =>
              ((c.tc : Thread nD τ).loc b) ↦{fullShare} StableHlo.after (hostOps1 (F := F)) (Wexit m c) (Proc.devRef .tc b)) := by
    rw [List.flatten_cons, List.flatten_nil, List.append_nil, held_tailSet, after_v15]
  rw [Pipeline.unscopedRestP_none, Pipeline.unscopedRestP_none]
  unfold Pipeline.unscopedRest Dat.arrays
  rw [bigSep_W0]
  beta_reduce
  rw [arr2_at]
  iintro ⟨Hk, Hb, ⟨H0, H1, H2⟩, HZ⟩
  ihave Hheld := (show (iprop(boundary (c.tc : Thread nD τ)
        ∗ (((c.tc : Thread nD τ).loc main_v15) ↦{fullShare} (dats m 0 c).arrAt 2 cfg0.N)
        ∗ bigSep (Pipeline.restRefs sig spec0) fun b => ((c.tc : Thread nD τ).loc b) ↦{fullShare} V m c b) : sProp 𝕄)
      ⊢ iprop(boundary (c.tc : Thread nD τ) ∗ (StableHlo.held (c.tc : Thread nD τ) tailSet (Wexit m c) : sProp 𝕄))
      from by rw [hW]) $$ [Hb H2 HZ]
  · isplitl [Hb]; · iexact Hb
    isplitl [H2]; · iexact H2
    iexact HZ
  iapply (Pipeline.wp_seqs_then (fun q => (cfgs q).toPCfg (Val := Elt F)) (defs₀ (F := F)) Variants.none c tailSet [] [hostOps1 (F := F)]
    hostOps1_within hostOps1_noalloc (Wexit m c)) $$ Hheld
  rw [Pipeline.chain_nil, wp_pure, hW']
  iintro ⟨Hb, H2, HZ⟩
  imodintro
  iapply Hk
  isplitr [HZ]
  · isplitl [H0]; · iexact H0
    isplitl [H1]; · iexact H1
    iexact H2
  · iexact HZ

/-! ## The run -/

set_option backward.isDefEq.respectTransparency.types false in
/-- THE RUN. Every weakly fair execution of the program terminates, and in the final state every buffer that is neither
    the kernel's own nor one of its two arrays holds what the later host operations leave in it from the exit contents. -/
theorem run_main : θ_run defs (onTc (τ := τ) (main (F := F))) (s₀ m ρ) (fun r => ∀ c : Dev nD,
    ∀ b ∈ Pipeline.restRefs sig spec0,
      r.2.mem ((c.tc : Thread nD τ).loc b) = StableHlo.after (hostOps1 (F := F)) (Wexit m c) (Proc.devRef .tc b)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after (hostOps1 (F := F)) (Wexit m c) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b)
        = StableHlo.after (hostOps1 (F := F)) (Wexit m c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after (hostOps1 (F := F)) (Wexit m c) (Proc.devRef .tc b)) s')
      isplitl [HU] <;> iassumption)
    (hQ := fun s h c => Pipeline.rest_of_restP Pipeline.Prefetch.none spec0 (fun k => k.elim0) c
        (fun b => StableHlo.after (hostOps1 (F := F)) (Wexit m c) (Proc.devRef .tc b)) s (fun k => k.elim0) (h c).2.1 (h c).2.2)

end Cert.Kernel.Hand

end
-- ==== Proof.FrameKernel.Frame.lean ====
/-
  The frame claim and the result buffer, read off the run: the three argument arrays are written by no host operation
  and are no array of the kernel, so they end as launched; the result buffer ends at the later host operations' term.
-/
import proofs.«114107_j32023276159237_1_alg».proof.Proof.FrameKernel.Launch
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the kernel writes an argument array (each writes only its own result buffer). -/
theorem prefix_keeps_args (r : Ref sig .tc) (hr : r = main_arg0 ∨ r = main_arg1 ∨ r = main_arg2) :
    ∀ op ∈ List.flatten (prefixOps (F := F)), Proc.devRef (τ := τ) .tc r ∉ op.writes := by
  intro op hop
  simp only [prefixOps, hostOps0, hostOps0_1, hostOps0_2, hostOps0_3, List.flatten_cons, List.flatten_nil, List.append_nil,
    List.cons_append, List.nil_append, List.mem_cons, List.mem_nil_iff, or_false] at hop
  rcases hr with rfl | rfl | rfl <;>
  · repeat' (rcases hop with rfl | hop)
    all_goals (try subst hop)
    all_goals simp only [StableHlo.nullary_writes, StableHlo.unary_writes, StableHlo.binary_writes, StableHlo.reshape_writes, Finset.mem_singleton]
    all_goals exact StableHlo.devRef_ne_of_ne (by decide)

/-- Nor does any of the eleven after it. -/
theorem tail_keeps_args (r : Ref sig .tc) (hr : r = main_arg0 ∨ r = main_arg1 ∨ r = main_arg2) :
    ∀ op ∈ (hostOps1 (F := F)), Proc.devRef (τ := τ) .tc r ∉ op.writes := by
  intro op hop
  simp only [hostOps1, List.mem_cons, List.mem_nil_iff, or_false] at hop
  rcases hr with rfl | rfl | rfl <;>
  · repeat' (rcases hop with rfl | hop)
    all_goals (try subst hop)
    all_goals simp only [StableHlo.nullary_writes, StableHlo.unary_writes, StableHlo.binary_writes, StableHlo.reshape_writes, Finset.mem_singleton]
    all_goals exact StableHlo.devRef_ne_of_ne (by decide)

/-- An argument array reaches the end as launched: no later host operation writes it, it is not the output array the
    kernel's exit changes, and no earlier host operation writes it. -/
theorem kept_arg (c : Dev nD) (r : Ref sig .tc) (hr : r = main_arg0 ∨ r = main_arg1 ∨ r = main_arg2) :
    StableHlo.after (hostOps1 (F := F)) (Wexit m c) (Proc.devRef .tc r) = m ((c.tc : Thread nD τ).loc r) := by
  rw [StableHlo.after_of_forall_not_mem _ _ (tail_keeps_args r hr)]
  have hne : Proc.devRef (τ := τ) .tc r ≠ Proc.devRef .tc main_v15 :=
    StableHlo.devRef_ne_of_ne (by rcases hr with rfl | rfl | rfl <;> decide)
  unfold Wexit
  rw [Function.update_of_ne hne]
  exact StableHlo.after_of_forall_not_mem _ _ (prefix_keeps_args r hr)

theorem kept_arg0 (c : Dev nD) : StableHlo.after (hostOps1 (F := F)) (Wexit m c) (Proc.devRef .tc main_arg0) = m ((c.tc : Thread nD τ).loc main_arg0) :=
  kept_arg m c main_arg0 (Or.inl rfl)
theorem kept_arg1 (c : Dev nD) : StableHlo.after (hostOps1 (F := F)) (Wexit m c) (Proc.devRef .tc main_arg1) = m ((c.tc : Thread nD τ).loc main_arg1) :=
  kept_arg m c main_arg1 (Or.inr (Or.inl rfl))
theorem kept_arg2 (c : Dev nD) : StableHlo.after (hostOps1 (F := F)) (Wexit m c) (Proc.devRef .tc main_arg2) = m ((c.tc : Thread nD τ).loc main_arg2) :=
  kept_arg m c main_arg2 (Or.inr (Or.inr rfl))

/-- The result buffer and the three arguments are buffers the kernel does not touch. -/
theorem mem_rest (r : Ref sig .tc) (hr : r = main_v23 ∨ r = main_arg0 ∨ r = main_arg1 ∨ r = main_arg2) :
    r ∈ Pipeline.restRefs sig spec0 := by
  refine Pipeline.mem_restRefs_of r ?_ ?_
  · rcases hr with rfl | rfl | rfl | rfl <;> rfl
  · intro w; fin_cases w <;> rcases hr with rfl | rfl | rfl | rfl <;> decide

/-- The run with the result buffer named and the arguments unchanged. -/
theorem run_result : θ_run defs (onTc (τ := τ) (main (F := F))) ⟨m, fun _ => 0, ρ⟩ (fun r => ∀ c : Dev nD,
      r.2.mem ((c.tc : Thread nD τ).loc main_v23) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c main_v23 (mem_rest main_v23 (Or.inl rfl)),
     (h c main_arg0 (mem_rest main_arg0 (Or.inr (Or.inl rfl)))).trans (kept_arg0 m c),
     (h c main_arg1 (mem_rest main_arg1 (Or.inr (Or.inr (Or.inl rfl))))).trans (kept_arg1 m c),
     (h c main_arg2 (mem_rest main_arg2 (Or.inr (Or.inr (Or.inr rfl))))).trans (kept_arg2 m c)⟩) (run_main m ρ)

/-- The frame claim: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.Kernel.Hand

end
-- ==== Proof.FrameKernelIdeal.Base.lean ====
/-
  The denominator kernel's frame, first part: what every later module of the frame is stated over.

  The program normalises the rows of two 4096 x 256 matrices on the host, stacks them into one 8192 x 256 matrix
  z (cast to bf16) and launches ONE kernel on a 16 x 16 grid: at point (i, j) the kernel is handed row block i of z
  through its first window and row block j of the SAME array through its second, adds the masked row sums of
  exp(2 * z_i z_j^T) into a 512 x 1 scratch accumulator that it clears at j = 0, and copies the accumulator into the
  512 x 1 output block i at j = 15. Eleven host operations follow the kernel.

  Here: the contents of every buffer when the kernel is entered (the host operations before it, folded), the
  reduction of the whole program to "kernel, then the later host operations", the three control cases of the
  body in closed form over the linear grid point (t mod 16 = 0, = 15, neither), where the output window is idle,
  and the names of the staging and scratch memrefs.
-/
import proofs.«114107_j32023276159237_1_alg».proof.Proof.Gen.KernelIdeal.Launch
import proofs.«114107_j32023276159237_1_alg».proof.Proof.Gen.KernelIdeal.Skeleton
import proofs.«114107_j32023276159237_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the kernel -/

/-- The host operations before the kernel, stretch by stretch: the two row normalisations (each a call of the
    norm function and the five operations after it) and the stacking and cast of z. -/
abbrev prefixOps : List (List (HloOp τ sig (Elt F))) := [hostOps0, hostOps0_1, hostOps0_2, hostOps0_3]

/-- Core `c`'s buffer contents when the kernel is entered, as a valuation: the launch memory after the host
    operations before the kernel. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The whole program reduces to the kernel CONTINUED BY the eleven later host operations, entered with every
    buffer at `V`: the earlier host operations run first, within the buffers that are not the kernel's own. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1]
    ⟨hostOps0_sub, hostOps0_1_sub, hostOps0_2_sub, hostOps0_3_sub⟩
    ⟨hostOps0_fresh, hostOps0_1_fresh, hostOps0_2_fresh, hostOps0_3_fresh⟩ main_chain

/-! ## The windows' blocks -/

/-- Window `w`'s block at point `t`, read off its array as the kernel finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block of z the first window holds at point `t`, at its literal type. -/
abbrev zrow (c : Dev nD) (t : Fin cfg0.N) : Vec F S512x256 .bf16 := iblk m c 0 t
/-- The row block of z the second window holds at point `t` (the columns of the similarity tile), at its literal type. -/
abbrev zcol (c : Dev nD) (t : Fin cfg0.N) : Vec F S512x256 .bf16 := iblk m c 1 t

/-! ## The body's two branch conditions over the linear point -/

/-- "This is the first column block": the condition of the accumulator's reset. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last column block": the condition of the copy into the output block. -/
abbrev condLast (i : grid0.Coords) : Prop := k0_cond2 i = 1#1
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
/-- Away from the last column block the output window is idle (the body stores nothing into it) -/
theorem idle_2 : ∀ t : Fin cfg0.N, ¬condLast (grid0.coords t) → cfg0.idle 2 (grid0.coords t) = true := by decide +kernel
/-- and is not written back; -/
theorem noFlush_2 : ∀ t : Fin cfg0.N, ¬condLast (grid0.coords t) → (cfg0.win 2).flush t = false := by decide +kernel
/-- at the last column block it is live. -/
theorem live_2 : ∀ t : Fin cfg0.N, condLast (grid0.coords t) → cfg0.idle 2 (grid0.coords t) = false := by decide +kernel

/-! ## The memrefs the body is called with -/

abbrev ms0 (t : Fin cfg0.N) : Memref sig .tc .vmem S512x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev accM : Memref sig .tc .vmem S512x1 .f32 := Memref.whole cc0_scratch0

/-- What the launch hands the kernel besides its windows: the accumulator at some contents and the generator register. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.FrameKernelIdeal.Runs.lean ====
/-
  The kernel body run once in each of its three control cases, on any whole staging memrefs: from the two row blocks of z
  in the input windows' buffers and the accumulator's contents, to the accumulator at the masked row sums added
  (the body's one arithmetic payload, `k0_pay2`), and in the last column block also the output buffer at that value.
-/
import proofs.«114107_j32023276159237_1_alg».proof.Proof.FrameKernelIdeal.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-buffer loads and stores

Every load and store of the body goes through the rectangle of the buffer's own shape at zero offsets: a load reads the
contents, a store made last leaves its value. -/

private theorem hz : (![0, 0] : Fin 2 → ℕ) = fun _ => 0 := funext fun a => by fin_cases a <;> rfl

/-- What a store through the whole-shape rectangle, made LAST, leaves in a column buffer reads as the stored value,
    whatever was there and whatever was stored before. -/
private theorem read_store_col (a : Memref sig .tc .vmem S512x1 .f32) (f : a.view.ty.Contents (Elt F)) (w : Vec F S512x1 .f32)
    (L : List (View.Piece (Elt F) S512x1 .f32)) :
    a.view.read (Elt F) (a.view.writes (Elt F) f
      ((⟨Rect.unit (s := S512x1) ![0, 0] S512x1.size inb_S512x1_S512x1_0_0, w⟩ : View.Piece (Elt F) S512x1 .f32) :: L)) = w := by
  have hcov : ∀ y : S512x1.Idx,
      ∃ p ∈ ((⟨Rect.unit (s := S512x1) ![0, 0] S512x1.size inb_S512x1_S512x1_0_0, w⟩ : View.Piece (Elt F) S512x1 .f32) :: L), y ∈ p.1.set :=
    fun y => ⟨_, List.mem_cons_self, View.mem_set_unit_zero (S := S512x1) hz inb_S512x1_S512x1_0_0 y⟩
  rw [View.read_writes_eq_canon a.view f _ hcov, View.canon_cons_unit_zero (S := S512x1) hz inb_S512x1_S512x1_0_0 w L]

/-- A load of a whole row-block buffer reads its contents. -/
private theorem load_blk (a : Memref sig .tc .vmem S512x256 .bf16) (ha : a.IsWhole) (x : Vec F S512x256 .bf16) :
    View.readAt (Elt F) a.view (Rect.unit (s := S512x256) ![0, 0] S512x256.size inb_S512x256_S512x256_0_0).toLoadRect (ha.unread x) = x := by
  rw [View.readAt_eq_ld, ha.read_unread, View.ld_unit_zero (S := S512x256) hz inb_S512x256_S512x256_0_0 x]

/-- A load of a whole column buffer reads its contents. -/
private theorem load_col (a : Memref sig .tc .vmem S512x1 .f32) (ha : a.IsWhole) (x : Vec F S512x1 .f32) :
    View.readAt (Elt F) a.view (Rect.unit (s := S512x1) ![0, 0] S512x1.size inb_S512x1_S512x1_0_0).toLoadRect (ha.unread x) = x := by
  rw [View.readAt_eq_ld, ha.read_unread, View.ld_unit_zero (S := S512x1) hz inb_S512x1_S512x1_0_0 x]

/-- A load of a whole column buffer after one whole store into it reads the stored value. -/
private theorem load_stored_col (a : Memref sig .tc .vmem S512x1 .f32) (w : Vec F S512x1 .f32) :
    a.view.readCov [(⟨Rect.unit (s := S512x1) ![0, 0] S512x1.size inb_S512x1_S512x1_0_0, w⟩ : View.Piece (Elt F) S512x1 .f32)]
      (Rect.unit (s := S512x1) ![0, 0] S512x1.size inb_S512x1_S512x1_0_0).toLoadRect = w :=
  View.readCov_unit_zero (S := S512x1) a.view hz inb_S512x1_S512x1_0_0 w

set_option maxHeartbeats 1000000 in
/-- FIRST column block (j = 0): the accumulator is cleared (`k0_pay1`, the zero column) and the block's masked row sums
    added to it; the output buffer is not touched. -/
theorem run_first (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole) (arg5 : Memref sig .tc .vmem S512x1 .f32) (harg5 : arg5.IsWhole)
    (hc0 : condFirst i) (hc1 : ¬condLast i) (x0 x1 : Vec F S512x256 .bf16) (xo : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ (∃ d, owns (c : Thread nD τ) arg5 fullShare d)
        ∗ (iprop(owns (c : Thread nD τ) arg2 fullShare x0 ∗ owns (c : Thread nD τ) arg3 fullShare x1 ∗ owns (c : Thread nD τ) arg4 fullShare xo
              ∗ owns (c : Thread nD τ) arg5 fullShare (k0_pay2 i x0 x1 (k0_pay1 (F := F)))) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; iexact HS
  ipureintro
  sl_unfold_words
  rw [read_store_col, load_blk, load_blk, load_stored_col]

set_option maxHeartbeats 1000000 in
/-- A MIDDLE column block (0 < j < 15): the block's masked row sums are added to what the accumulator held. -/
theorem run_middle (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole) (arg5 : Memref sig .tc .vmem S512x1 .f32) (harg5 : arg5.IsWhole)
    (hc0 : ¬condFirst i) (hc1 : ¬condLast i) (x0 x1 : Vec F S512x256 .bf16) (xo : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare xo
        ∗ owns (c : Thread nD τ) arg5 fullShare xs
        ∗ (iprop(owns (c : Thread nD τ) arg2 fullShare x0 ∗ owns (c : Thread nD τ) arg3 fullShare x1 ∗ owns (c : Thread nD τ) arg4 fullShare xo
              ∗ owns (c : Thread nD τ) arg5 fullShare (k0_pay2 i x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; iexact HS
  ipureintro
  rw [read_store_col, load_blk, load_blk, load_col]

set_option maxHeartbeats 1000000 in
/-- The LAST column block (j = 15): the block's masked row sums are added and the total copied into the output buffer. -/
theorem run_last (c : Dev nD) (i : grid0.Coords)
    (arg2 : Memref sig .tc .vmem S512x256 .bf16) (harg2 : arg2.IsWhole) (arg3 : Memref sig .tc .vmem S512x256 .bf16) (harg3 : arg3.IsWhole)
    (arg4 : Memref sig .tc .vmem S512x1 .f32) (harg4 : arg4.IsWhole) (arg5 : Memref sig .tc .vmem S512x1 .f32) (harg5 : arg5.IsWhole)
    (hc0 : ¬condFirst i) (hc1 : condLast i) (x0 x1 : Vec F S512x256 .bf16) (xs : Vec F S512x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1
              ∗ owns (c : Thread nD τ) arg4 fullShare (k0_pay2 i x0 x1 xs)
              ∗ owns (c : Thread nD τ) arg5 fullShare (k0_pay2 i x0 x1 xs)) -∗ K ⟨⟩))
      ⊢ wp frame (wpE (defs₀ (F := F)) Variants.none c none) E (cc0__denom_kernel i arg2 harg2 arg3 harg3 arg4 harg4 arg5 harg5) K := by
  simp only [cc0__denom_kernel_eq_skeleton]; unfold cc0__denom_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; iexact H2
    ipureintro
    sl_unfold_words
    rw [read_store_col, load_stored_col, load_blk, load_blk, load_col]
  iexists _; isplitr; swap; iexact HS
  ipureintro
  sl_unfold_words
  rw [read_store_col, load_blk, load_blk, load_col]

end Cert.KernelIdeal.Hand

end
-- ==== Proof.FrameKernelIdeal.Body.lean ====
/-
  The kernel's proof data and its body obligation.

  What the accumulator holds after linear grid point n (`accAt`): at a point of the first column block the block's masked
  row sums over the zero column, at any other point those sums added to what the point before left. The region
  invariant carries the accumulator at that value from one point to the next; the output window's staging buffer holds
  the accumulator's value after a last-column point and is idle elsewhere; the input windows' buffers hold their
  row blocks of z. The two input windows read ONE array, so each holds half of it.
-/
import proofs.«114107_j32023276159237_1_alg».proof.Proof.FrameKernelIdeal.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE ACCUMULATION: what the scratch accumulator holds after the body at linear point `n`. -/
def accAt (c : Dev nD) : (n : ℕ) → n < cfg0.N → Vec F S512x1 .f32
  | 0, hn => k0_pay2 (grid0.coords ⟨0, hn⟩) (zrow m c ⟨0, hn⟩) (zcol m c ⟨0, hn⟩) (k0_pay1 (F := F))
  | n + 1, hn =>
    if (n + 1) % 16 = 0 then k0_pay2 (grid0.coords ⟨n + 1, hn⟩) (zrow m c ⟨n + 1, hn⟩) (zcol m c ⟨n + 1, hn⟩) (k0_pay1 (F := F))
    else k0_pay2 (grid0.coords ⟨n + 1, hn⟩) (zrow m c ⟨n + 1, hn⟩) (zcol m c ⟨n + 1, hn⟩) (accAt c n (Nat.lt_of_succ_lt hn))

/-- At a point of the first column block the accumulator restarts from the zero column. -/
theorem accAt_first (c : Dev nD) (t : Fin cfg0.N) (h : t.val % 16 = 0) :
    accAt m c t.val t.isLt = k0_pay2 (grid0.coords t) (zrow m c t) (zcol m c t) (k0_pay1 (F := F)) := by
  obtain ⟨n, hn⟩ := t
  cases n with
  | zero => rfl
  | succ k =>
    have h' : (k + 1) % 16 = 0 := h
    show accAt m c (k + 1) hn = _
    rw [accAt, if_pos h']

/-- At any other point it adds to what the point before left. -/
theorem accAt_next (c : Dev nD) (t : Fin cfg0.N) (h : ¬t.val % 16 = 0) :
    accAt m c t.val t.isLt
      = k0_pay2 (grid0.coords t) (zrow m c t) (zcol m c t) (accAt m c (t.val - 1) (Nat.lt_of_le_of_lt (Nat.sub_le _ _) t.isLt)) := by
  obtain ⟨n, hn⟩ := t
  cases n with
  | zero => exact absurd rfl h
  | succ k =>
    have h' : ¬(k + 1) % 16 = 0 := h
    show accAt m c (k + 1) hn = _
    rw [accAt, if_neg h']
    rfl

/-- The region invariant before position `n`: before the first point what the launch hands over (the accumulator at
    anything); afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem q_0 (c : Dev nD) : (dats m 0 c).q 0 = fullShare.left := by dsimp only [dats]
theorem q_1 (c : Dev nD) : (dats m 0 c).q 1 = fullShare.right := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = accAt m c t.val t.isLt := by dsimp only [dats]

/-! ## The invariant, position by position -/

/-- Before the first point the invariant is what the launch hands over. -/
private theorem PhiS_zero (c : Dev nD) (n : ℕ) (hn : n ≤ cfg0.N) (h : n = 0) : PhiS m c n hn = Pipeline.ΦA spec0 c := by
  subst h; rfl

/-- Before any later point it names the accumulator's contents: what the point before left. -/
private theorem PhiS_pos (c : Dev nD) (n : ℕ) (hn : n ≤ cfg0.N) (h : n ≠ 0) :
    PhiS m c n hn
      = iprop(iprop(owns (c : Thread nD τ) accM fullShare (accAt m c (n - 1) (Nat.lt_of_lt_of_le (Nat.sub_lt (Nat.pos_of_ne_zero h) Nat.one_pos) hn)))
          ∗ (∃ r, prngReg c r)) := by
  cases n with
  | zero => exact absurd rfl h
  | succ k => rfl

/-- At every position the invariant holds the accumulator at SOME contents and the generator register at some state:
    the named contents forgotten. -/
private theorem PhiS_forget (c : Dev nD) (n : ℕ) (hn : n ≤ cfg0.N) :
    PhiS m c n hn ⊢ iprop(iprop((∃ d, owns (c : Thread nD τ) accM fullShare d)) ∗ (∃ r, prngReg c r)) := by
  by_cases h : n = 0
  · rw [PhiS_zero m c n hn h, PhiA0_eq]
  · rw [PhiS_pos m c n hn h]
    iintro ⟨HS, Hg⟩
    isplitl [HS]
    · iexists _; iexact HS
    iexact Hg

/-- The invariant before point `t`, restated at `t.val`. -/
private theorem Phi_castSucc (c : Dev nD) (t : Fin cfg0.N) :
    (dats m 0 c).Φ t.castSucc = PhiS m c t.val (Nat.le_of_lt t.isLt) := by
  dsimp only [dats]; simp only [Fin.coe_castSucc]

/-- The invariant after point `t`: the accumulator at what that point leaves. -/
private theorem Phi_succ (c : Dev nD) (t : Fin cfg0.N) :
    (dats m 0 c).Φ t.succ
      = iprop(iprop(owns (c : Thread nD τ) accM fullShare (accAt m c t.val t.isLt)) ∗ (∃ r, prngReg c r)) := rfl

/-! ## What the input windows' buffers hold -/

/-- The first window's current buffer holds row block i of z at every point, fetched there or not: where no fetch
    happens the block index has not moved since the point before, and the body leaves the buffer as it found it. -/
private theorem before_in_of_0 {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t := by
  have hblk : ∀ t, dat.blockOf 0 t = iblk m c 0 t := fun t => by
    unfold Dat.blockOf iblk; rw [hA]
  have hkeep : ∀ t, (cfg0.win 0).cut (cfg0.grid.coords t) (dat.after 0 t) = dat.blockOf 0 t := fun t => by
    rw [hafter, hblk]
  rw [dat.before_in_eq_fetched 0 rfl (fun _ => rfl) (fun _ _ _ => rfl) hkeep t d, ← hblk]
  rfl

/-- The second window's current buffer holds row block j of z at every point, likewise. -/
private theorem before_in_of_1 {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t := by
  have hblk : ∀ t, dat.blockOf 1 t = iblk m c 1 t := fun t => by
    unfold Dat.blockOf iblk; rw [hA]
  have hkeep : ∀ t, (cfg0.win 1).cut (cfg0.grid.coords t) (dat.after 1 t) = dat.blockOf 1 t := fun t => by
    rw [hafter, hblk]
  rw [dat.before_in_eq_fetched 1 rfl (fun _ => rfl) (fun _ _ _ => rfl) hkeep t d, ← hblk]
  rfl

private theorem before_0 (c : Dev nD) (t : Fin cfg0.N) (d) : (dats m 0 c).before 0 t d = iblk m c 0 t :=
  before_in_of_0 m (dats m 0 c) (A_eq m c 0) (after_0 m c) t d
private theorem before_1 (c : Dev nD) (t : Fin cfg0.N) (d) : (dats m 0 c).before 1 t d = iblk m c 1 t :=
  before_in_of_1 m (dats m 0 c) (A_eq m c 1) (after_1 m c) t d

/-! ## The body obligation, at a generic point -/

/-- What the body is called with at point `t`: the invariant, what the core owes, and each window's current buffer
    at what it then holds, -/
private def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
private def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
private theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [Phi_succ, Phi_castSucc]
  have hL0 : (dats m 0 c).leavesExact 0 t = owns (c : Thread nD τ) (ms0 t) fullShare (iblk m c 0 t) := by
    unfold Dat.leavesExact; rw [live_0 t, after_0]
  have hL1 : (dats m 0 c).leavesExact 1 t = owns (c : Thread nD τ) (ms1 t) fullShare (iblk m c 1 t) := by
    unfold Dat.leavesExact; rw [live_1 t, after_1]
  rw [hL0, hL1]
  by_cases h0 : t.val % 16 = 0
  · -- the first column block: the accumulator restarts, whatever it held
    have h1 : ¬t.val % 16 = 15 := by omega
    have hF : condFirst (grid0.coords t) := (hcondFirst t).mpr h0
    have hnL : ¬condLast (grid0.coords t) := fun h => h1 ((hcondLast t).mp h)
    rw [Dat.leavesExact_idle (dats m 0 c) 2 t (idle_2 t hnL) (noFlush_2 t hnL), accAt_first m c t h0]
    iintro ⟨HΦ, Ho, ⟨%d0, H0⟩, ⟨%d1, H1⟩, ⟨%d2, H2⟩⟩
    ihave ⟨HS, Hg⟩ := (PhiS_forget m c t.val (Nat.le_of_lt t.isLt)) $$ HΦ
    iapply (run_first c (grid0.coords t) (ms0 t) (hs0 t) (ms1 t) (hs1 t) (ms2 t) (hs2 t) accM (Memref.isWhole_whole _)
      hF hnL (zrow m c t) (zcol m c t) ((dats m 0 c).before 2 t d2) Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexists d2; iexact H2
  · have hz : t.val ≠ 0 := fun h => h0 (by rw [h])
    have hnF : ¬condFirst (grid0.coords t) := fun h => h0 ((hcondFirst t).mp h)
    by_cases h1 : t.val % 16 = 15
    · -- the last column block: the total is also copied into the output window's buffer
      have hL : condLast (grid0.coords t) := (hcondLast t).mpr h1
      have hL2 : (dats m 0 c).leavesExact 2 t = owns (c : Thread nD τ) (ms2 t) fullShare (accAt m c t.val t.isLt) := by
        unfold Dat.leavesExact; rw [live_2 t hL, after_2]
      rw [hL2, accAt_next m c t h0, PhiS_pos m c _ _ hz]
      iintro ⟨⟨HS, Hg⟩, Ho, ⟨%d0, H0⟩, ⟨%d1, H1⟩, ⟨%d2, H2⟩⟩
      iapply (run_last c (grid0.coords t) (ms0 t) (hs0 t) (ms1 t) (hs1 t) (ms2 t) (hs2 t) accM (Memref.isWhole_whole _)
        hnF hL (zrow m c t) (zcol m c t) (accAt m c (t.val - 1) (Nat.lt_of_le_of_lt (Nat.sub_le _ _) t.isLt)) Set.univ _)
      isplitl [H0]; · iexact H0
      isplitl [H1]; · iexact H1
      isplitl [H2]; · iexists ((dats m 0 c).before 2 t d2); iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexact H2
    · -- a middle column block: the sums are added to what the point before left
      have hnL : ¬condLast (grid0.coords t) := fun h => h1 ((hcondLast t).mp h)
      rw [Dat.leavesExact_idle (dats m 0 c) 2 t (idle_2 t hnL) (noFlush_2 t hnL), accAt_next m c t h0, PhiS_pos m c _ _ hz]
      iintro ⟨⟨HS, Hg⟩, Ho, ⟨%d0, H0⟩, ⟨%d1, H1⟩, ⟨%d2, H2⟩⟩
      iapply (run_middle c (grid0.coords t) (ms0 t) (hs0 t) (ms1 t) (hs1 t) (ms2 t) (hs2 t) accM (Memref.isWhole_whole _)
        hnF hnL (zrow m c t) (zcol m c t) ((dats m 0 c).before 2 t d2)
        (accAt m c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists d2; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back: the accumulator's named contents are forgotten. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  exact PhiS_forget m c _ _

end Cert.KernelIdeal.Hand

end
-- ==== Proof.FrameKernelIdeal.Launch.lean ====
/-
  The launch: from the body obligation to the run of the whole program.

  The kernel's two input windows read ONE array (z, stacked and cast), so the launch hands each of them half of that
  array's buffer and takes the halves back at the exit; the output window's array is held whole. The eleven host
  operations after the kernel then run within the output array and every buffer the kernel does not touch.
  The conclusion names every such buffer after the run: the later host operations applied to the contents at the
  kernel's exit (`Wexit`: the kernel-entry contents with the output array at what the pipeline wrote back).
-/
import proofs.«114107_j32023276159237_1_alg».proof.Proof.FrameKernelIdeal.Body
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at the kernel's exit: as at its entry, but the output array at what the pipeline's write-backs
    left in it. -/
def Wexit (c : Dev nD) : Valuation τ sig (Elt F) :=
  Function.update (V0 m c) (Proc.devRef .tc main_v15) ((dats m 0 c).arrAt 2 cfg0.N)

/-- The result buffer after the run: the eleven later host operations from the exit contents. -/
def resultOf (c : Dev nD) : Buf (Elt F) ((c.tc : Thread nD τ).loc main_v23) :=
  StableHlo.after (hostOps1 (F := F)) (Wexit m c) (Proc.devRef .tc main_v23)

/-! ## The launch's split of the arrays -/

/-- The distinct buffers behind the three windows' arrays are two: the stacked matrix and the output column. -/
private theorem arr_img : (Finset.univ.image (Pipeline.arrRef spec0) : Finset (Ref sig .tc)) = {main_v14, main_v15} := by decide

/-- The launch's split: the stacked matrix's buffer, whole at the full share, is halved between the two input windows; the
    output column's buffer goes whole to the output window. -/
private theorem hsplit (c : Dev nD) :
    (Pipeline.arrBufs spec0 c (V m c) : sProp 𝕄) ⊢ (dats m 0 c).arrays ((dats m 0 c).arrAt · 0) := by
  have e0 : ((cfg0.win 0).arr.view.loc (c.tc : Thread nD τ) ↦[(cfg0.win 0).arr.view.set]{(dats m 0 c).share 0} (dats m 0 c).arrAt 0 0 : sProp 𝕄)
      = ((c.tc : Thread nD τ).loc main_v14 ↦{fullShare.left} V m c main_v14) := by
    rw [(arr_whole0 0).set_eq_univ]; rfl
  have e1 : ((cfg0.win 1).arr.view.loc (c.tc : Thread nD τ) ↦[(cfg0.win 1).arr.view.set]{(dats m 0 c).share 1} (dats m 0 c).arrAt 1 0 : sProp 𝕄)
      = ((c.tc : Thread nD τ).loc main_v14 ↦{fullShare.right} V m c main_v14) := by
    rw [(arr_whole0 1).set_eq_univ]; rfl
  have e2 : ((cfg0.win 2).arr.view.loc (c.tc : Thread nD τ) ↦[(cfg0.win 2).arr.view.set]{(dats m 0 c).share 2} (dats m 0 c).arrAt 2 0 : sProp 𝕄)
      = ((c.tc : Thread nD τ).loc main_v15 ↦{fullShare} V m c main_v15) := by
    rw [(arr_whole0 2).set_eq_univ]; rfl
  unfold Pipeline.arrBufs Dat.arrays
  rw [arr_img, bigSep_W0, BI.bigSep_insert (by decide), BI.bigSep_singleton]
  beta_reduce
  rw [e0, e1, e2]
  refine (show (iprop((((c.tc : Thread nD τ).loc main_v14) ↦{fullShare} V m c main_v14)
      ∗ (((c.tc : Thread nD τ).loc main_v15) ↦{fullShare} V m c main_v15)) : sProp 𝕄) ⊢ _ from ?_)
  iintro ⟨H14, H15⟩
  ihave H := (pointsTo_share (PosShare.mem_left_op_right fullShare)).1 $$ H14
  icases H with ⟨Hl, Hr⟩
  isplitl [Hl]; · iexact Hl
  isplitl [Hr]; · iexact Hr
  iexact H15

/-! ## The later host operations -/

/-- The output column is no buffer that bypasses the kernel: it is the output window's array. -/
private theorem v15_not_rest : main_v15 ∉ Pipeline.restRefs sig spec0 := fun h =>
  (Finset.mem_sdiff.mp h).2 (Finset.mem_image.mpr ⟨(2 : Fin 3), Finset.mem_univ _, rfl⟩)

/-- The buffers the later host operations run within: the output column and every buffer that bypasses the kernel. -/
private def tailSet : Finset (DevRef τ sig) :=
  (insert main_v15 (Pipeline.restRefs sig spec0)).map ⟨Proc.devRef (sig := sig) .tc, Proc.devRef_injective _⟩

/-- Held at a valuation they are the output column and the bypassing buffers at it. -/
private theorem held_tailSet (c : Dev nD) (Wv : Valuation τ sig (Elt F)) :
    (StableHlo.held (c.tc : Thread nD τ) (tailSet) Wv : sProp 𝕄)
      = iprop((((c.tc : Thread nD τ).loc main_v15) ↦{fullShare} Wv (Proc.devRef .tc main_v15))
          ∗ bigSep (Pipeline.restRefs sig spec0) fun b => ((c.tc : Thread nD τ).loc b) ↦{fullShare} Wv (Proc.devRef .tc b)) := by
  unfold StableHlo.held tailSet
  rw [bigSep_map, BI.bigSep_insert v15_not_rest]
  rfl

/-- At the exit the output column holds what the write-backs left -/
private theorem Wexit_v15 (c : Dev nD) : Wexit m c (Proc.devRef .tc main_v15) = (dats m 0 c).arrAt 2 cfg0.N := by
  unfold Wexit; exact Function.update_self ..

/-- and every other buffer what it held at the entry. -/
private theorem Wexit_of_ne (c : Dev nD) (b : Ref sig .tc) (hb : b ≠ main_v15) : Wexit m c (Proc.devRef .tc b) = V m c b := by
  unfold Wexit; rw [Function.update_of_ne (StableHlo.devRef_ne_of_ne hb)]

/-- No later host operation touches the stacked matrix z -/
private theorem hostOps1_no14 : ∀ op ∈ (hostOps1 : List (HloOp τ sig (Elt F))), Proc.devRef .tc main_v14 ∉ op.bufs := by
  intro op hop
  simp only [hostOps1, List.mem_cons, List.mem_nil_iff, _root_.or_false] at hop
  rcases hop with rfl | rfl | rfl | rfl | rfl | rfl | rfl | rfl | rfl | rfl | rfl
  all_goals
    simp only [StableHlo.reshape_bufs, StableHlo.nullary_bufs, StableHlo.unary_bufs, StableHlo.binary_bufs, Finset.mem_insert,
      Finset.mem_singleton, (Proc.devRef_injective (τ := τ) (sig := sig) .tc).eq_iff]
    decide

/-- and none writes the output column. -/
private theorem hostOps1_keep15 : ∀ op ∈ (hostOps1 : List (HloOp τ sig (Elt F))), Proc.devRef .tc main_v15 ∉ op.writes := by
  intro op hop
  simp only [hostOps1, List.mem_cons, List.mem_nil_iff, _root_.or_false] at hop
  rcases hop with rfl | rfl | rfl | rfl | rfl | rfl | rfl | rfl | rfl | rfl | rfl
  all_goals
    simp only [StableHlo.reshape_writes, StableHlo.nullary_writes, StableHlo.unary_writes, StableHlo.binary_writes,
      Finset.mem_singleton, (Proc.devRef_injective (τ := τ) (sig := sig) .tc).eq_iff]
    decide

/-- So after them the output column still holds what the write-backs left. -/
private theorem after_v15 (c : Dev nD) :
    StableHlo.after (hostOps1 (F := F)) (Wexit m c) (Proc.devRef .tc main_v15) = (dats m 0 c).arrAt 2 cfg0.N := by
  rw [StableHlo.after_of_forall_not_mem _ _ hostOps1_keep15, Wexit_v15]

/-- Each later host operation runs within the output column and the bypassing buffers. -/
private theorem hostOps1_within : ∀ ops ∈ ([hostOps1] : List (List (HloOp τ sig (Elt F)))), ∀ op ∈ ops, op.bufs ⊆ tailSet := by
  classical
  intro ops hops op hop
  simp only [List.mem_cons, List.mem_nil_iff, _root_.or_false] at hops
  subst hops
  intro b hb
  have hu : b ∈ Pipeline.ucRefs τ sig := Pipeline.sub_ucRefs op ((List.forall_iff_forall_mem.mp hostOps1_sub) op hop) hb
  have h14 : b ≠ Proc.devRef .tc main_v14 := fun e => hostOps1_no14 op hop (e ▸ hb)
  simp only [tailSet, Pipeline.ucRefs, StableHlo.tcRefs, Pipeline.restRefs, Finset.mem_map, Finset.mem_filter, Finset.mem_insert,
    Finset.mem_sdiff, Finset.mem_univ, true_and, Function.Embedding.coeFn_mk] at hu ⊢
  obtain ⟨⟨r, rfl⟩, hr⟩ := hu
  refine ⟨r, ?_, rfl⟩
  by_cases h : r = main_v15
  · exact Or.inl h
  · refine Or.inr ⟨hr, fun hi => ?_⟩
    rw [arr_img, Finset.mem_insert, Finset.mem_singleton] at hi
    rcases hi with rfl | rfl
    · exact h14 rfl
    · exact h rfl

private theorem hostOps1_noalloc : ∀ ops ∈ ([hostOps1] : List (List (HloOp τ sig (Elt F)))), ∀ op ∈ ops, op.fresh = ∅ := by
  intro ops hops op hop
  simp only [List.mem_cons, List.mem_nil_iff, _root_.or_false] at hops
  subst hops
  exact (List.forall_iff_forall_mem.mp hostOps1_fresh) op hop

/-- The output window's array at any position of the write-backs is the output column's buffer, whole at the full share. -/
private theorem arr2_at (c : Dev nD) (n : ℕ) :
    ((cfg0.win 2).arr.view.loc (c.tc : Thread nD τ) ↦[(cfg0.win 2).arr.view.set]{(dats m 0 c).share 2} (dats m 0 c).arrAt 2 n : sProp 𝕄)
      = (((c.tc : Thread nD τ).loc main_v15) ↦{fullShare} (dats m 0 c).arrAt 2 n) := by
  rw [(arr_whole0 2).set_eq_univ]; rfl

/-- The bypassing buffers at the exit contents are the bypassing buffers at the entry contents. -/
private theorem rest_at_exit (c : Dev nD) :
    (bigSep (Pipeline.restRefs sig spec0) fun b => (((c.tc : Thread nD τ).loc b) ↦{fullShare} Wexit m c (Proc.devRef .tc b) : sProp 𝕄))
      = bigSep (Pipeline.restRefs sig spec0) fun b => (((c.tc : Thread nD τ).loc b) ↦{fullShare} V m c b : sProp 𝕄) :=
  bigSep_congr fun b hb => by rw [Wexit_of_ne m c b fun e => v15_not_rest (e ▸ hb)]

set_option backward.isDefEq.respectTransparency.types false in
/-- THE LATER HOST OPERATIONS, from the kernel's exit: the two halves of z stay with the input windows untouched; the output
    column (whole, at what the write-backs left) joins the bypassing buffers, the eleven operations run within them, and
    the output column comes back as it was, the bypassing buffers at the operations' result from the exit contents. -/
private theorem htail (c : Dev nD) (Q' : PUnit → sProp 𝕄) :
    iprop((iprop((dats m 0 c).arrays ((dats m 0 c).arrAt · cfg0.N)
            ∗ Pipeline.unscopedRestP (Ix := Unit) (Name := ℕ) (U := UR sig nD τ) (Lvl := ℕ) Pipeline.Prefetch.none spec0 c
                (fun b => StableHlo.after (hostOps1 (F := F)) (Wexit m c) (Proc.devRef .tc b))) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain [StableHlo.seq (hostOps1 (F := F))]) Q' := by
  have hW : (StableHlo.held (c.tc : Thread nD τ) tailSet (Wexit m c) : sProp 𝕄)
      = iprop((((c.tc : Thread nD τ).loc main_v15) ↦{fullShare} (dats m 0 c).arrAt 2 cfg0.N)
          ∗ bigSep (Pipeline.restRefs sig spec0) fun b => ((c.tc : Thread nD τ).loc b) ↦{fullShare} V m c b) := by
    rw [held_tailSet, Wexit_v15, rest_at_exit]
  have hW' : (StableHlo.held (c.tc : Thread nD τ) tailSet (StableHlo.after (List.flatten [hostOps1 (F := F)]) (Wexit m c)) : sProp 𝕄)
      = iprop((((c.tc : Thread nD τ).loc main_v15) ↦{fullShare} (dats m 0 c).arrAt 2 cfg0.N)
          ∗ bigSep (Pipeline.restRefs sig spec0) fun b =>
              ((c.tc : Thread nD τ).loc b) ↦{fullShare} StableHlo.after (hostOps1 (F := F)) (Wexit m c) (Proc.devRef .tc b)) := by
    rw [List.flatten_cons, List.flatten_nil, List.append_nil, held_tailSet, after_v15]
  rw [Pipeline.unscopedRestP_none, Pipeline.unscopedRestP_none]
  unfold Pipeline.unscopedRest Dat.arrays
  rw [bigSep_W0]
  beta_reduce
  rw [arr2_at]
  iintro ⟨Hk, Hb, ⟨H0, H1, H2⟩, HZ⟩
  ihave Hheld := (show (iprop(boundary (c.tc : Thread nD τ)
        ∗ (((c.tc : Thread nD τ).loc main_v15) ↦{fullShare} (dats m 0 c).arrAt 2 cfg0.N)
        ∗ bigSep (Pipeline.restRefs sig spec0) fun b => ((c.tc : Thread nD τ).loc b) ↦{fullShare} V m c b) : sProp 𝕄)
      ⊢ iprop(boundary (c.tc : Thread nD τ) ∗ (StableHlo.held (c.tc : Thread nD τ) tailSet (Wexit m c) : sProp 𝕄))
      from by rw [hW]) $$ [Hb H2 HZ]
  · isplitl [Hb]; · iexact Hb
    isplitl [H2]; · iexact H2
    iexact HZ
  iapply (Pipeline.wp_seqs_then (fun q => (cfgs q).toPCfg (Val := Elt F)) (defs₀ (F := F)) Variants.none c tailSet [] [hostOps1 (F := F)]
    hostOps1_within hostOps1_noalloc (Wexit m c)) $$ Hheld
  rw [Pipeline.chain_nil, wp_pure, hW']
  iintro ⟨Hb, H2, HZ⟩
  imodintro
  iapply Hk
  isplitr [HZ]
  · isplitl [H0]; · iexact H0
    isplitl [H1]; · iexact H1
    iexact H2
  · iexact HZ

/-! ## The run -/

set_option backward.isDefEq.respectTransparency.types false in
/-- THE RUN. Every weakly fair execution of the program terminates, and in the final state every buffer that is neither
    the kernel's own nor one of its two arrays holds what the later host operations leave in it from the exit contents. -/
theorem run_main : θ_run defs (onTc (τ := τ) (main (F := F))) (s₀ m ρ) (fun r => ∀ c : Dev nD,
    ∀ b ∈ Pipeline.restRefs sig spec0,
      r.2.mem ((c.tc : Thread nD τ).loc b) = StableHlo.after (hostOps1 (F := F)) (Wexit m c) (Proc.devRef .tc b)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after (hostOps1 (F := F)) (Wexit m c) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b)
        = StableHlo.after (hostOps1 (F := F)) (Wexit m c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after (hostOps1 (F := F)) (Wexit m c) (Proc.devRef .tc b)) s')
      isplitl [HU] <;> iassumption)
    (hQ := fun s h c => Pipeline.rest_of_restP Pipeline.Prefetch.none spec0 (fun k => k.elim0) c
        (fun b => StableHlo.after (hostOps1 (F := F)) (Wexit m c) (Proc.devRef .tc b)) s (fun k => k.elim0) (h c).2.1 (h c).2.2)

end Cert.KernelIdeal.Hand

end
-- ==== Proof.FrameKernelIdeal.Frame.lean ====
/-
  The frame claim and the result buffer, read off the run: the three argument arrays are written by no host operation
  and are no array of the kernel, so they end as launched; the result buffer ends at the later host operations' term.
-/
import proofs.«114107_j32023276159237_1_alg».proof.Proof.FrameKernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the kernel writes an argument array (each writes only its own result buffer). -/
theorem prefix_keeps_args (r : Ref sig .tc) (hr : r = main_arg0 ∨ r = main_arg1 ∨ r = main_arg2) :
    ∀ op ∈ List.flatten (prefixOps (F := F)), Proc.devRef (τ := τ) .tc r ∉ op.writes := by
  intro op hop
  simp only [prefixOps, hostOps0, hostOps0_1, hostOps0_2, hostOps0_3, List.flatten_cons, List.flatten_nil, List.append_nil,
    List.cons_append, List.nil_append, List.mem_cons, List.mem_nil_iff, or_false] at hop
  rcases hr with rfl | rfl | rfl <;>
  · repeat' (rcases hop with rfl | hop)
    all_goals (try subst hop)
    all_goals simp only [StableHlo.nullary_writes, StableHlo.unary_writes, StableHlo.binary_writes, StableHlo.reshape_writes, Finset.mem_singleton]
    all_goals exact StableHlo.devRef_ne_of_ne (by decide)

/-- Nor does any of the eleven after it. -/
theorem tail_keeps_args (r : Ref sig .tc) (hr : r = main_arg0 ∨ r = main_arg1 ∨ r = main_arg2) :
    ∀ op ∈ (hostOps1 (F := F)), Proc.devRef (τ := τ) .tc r ∉ op.writes := by
  intro op hop
  simp only [hostOps1, List.mem_cons, List.mem_nil_iff, or_false] at hop
  rcases hr with rfl | rfl | rfl <;>
  · repeat' (rcases hop with rfl | hop)
    all_goals (try subst hop)
    all_goals simp only [StableHlo.nullary_writes, StableHlo.unary_writes, StableHlo.binary_writes, StableHlo.reshape_writes, Finset.mem_singleton]
    all_goals exact StableHlo.devRef_ne_of_ne (by decide)

/-- An argument array reaches the end as launched: no later host operation writes it, it is not the output array the
    kernel's exit changes, and no earlier host operation writes it. -/
theorem kept_arg (c : Dev nD) (r : Ref sig .tc) (hr : r = main_arg0 ∨ r = main_arg1 ∨ r = main_arg2) :
    StableHlo.after (hostOps1 (F := F)) (Wexit m c) (Proc.devRef .tc r) = m ((c.tc : Thread nD τ).loc r) := by
  rw [StableHlo.after_of_forall_not_mem _ _ (tail_keeps_args r hr)]
  have hne : Proc.devRef (τ := τ) .tc r ≠ Proc.devRef .tc main_v15 :=
    StableHlo.devRef_ne_of_ne (by rcases hr with rfl | rfl | rfl <;> decide)
  unfold Wexit
  rw [Function.update_of_ne hne]
  exact StableHlo.after_of_forall_not_mem _ _ (prefix_keeps_args r hr)

theorem kept_arg0 (c : Dev nD) : StableHlo.after (hostOps1 (F := F)) (Wexit m c) (Proc.devRef .tc main_arg0) = m ((c.tc : Thread nD τ).loc main_arg0) :=
  kept_arg m c main_arg0 (Or.inl rfl)
theorem kept_arg1 (c : Dev nD) : StableHlo.after (hostOps1 (F := F)) (Wexit m c) (Proc.devRef .tc main_arg1) = m ((c.tc : Thread nD τ).loc main_arg1) :=
  kept_arg m c main_arg1 (Or.inr (Or.inl rfl))
theorem kept_arg2 (c : Dev nD) : StableHlo.after (hostOps1 (F := F)) (Wexit m c) (Proc.devRef .tc main_arg2) = m ((c.tc : Thread nD τ).loc main_arg2) :=
  kept_arg m c main_arg2 (Or.inr (Or.inr rfl))

/-- The result buffer and the three arguments are buffers the kernel does not touch. -/
theorem mem_rest (r : Ref sig .tc) (hr : r = main_v23 ∨ r = main_arg0 ∨ r = main_arg1 ∨ r = main_arg2) :
    r ∈ Pipeline.restRefs sig spec0 := by
  refine Pipeline.mem_restRefs_of r ?_ ?_
  · rcases hr with rfl | rfl | rfl | rfl <;> rfl
  · intro w; fin_cases w <;> rcases hr with rfl | rfl | rfl | rfl <;> decide

/-- The run with the result buffer named and the arguments unchanged. -/
theorem run_result : θ_run defs (onTc (τ := τ) (main (F := F))) ⟨m, fun _ => 0, ρ⟩ (fun r => ∀ c : Dev nD,
      r.2.mem ((c.tc : Thread nD τ).loc main_v23) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c main_v23 (mem_rest main_v23 (Or.inl rfl)),
     (h c main_arg0 (mem_rest main_arg0 (Or.inr (Or.inl rfl)))).trans (kept_arg0 m c),
     (h c main_arg1 (mem_rest main_arg1 (Or.inr (Or.inr (Or.inl rfl))))).trans (kept_arg1 m c),
     (h c main_arg2 (mem_rest main_arg2 (Or.inr (Or.inr (Or.inr rfl))))).trans (kept_arg2 m c)⟩) (run_main m ρ)

/-- The frame claim: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_result m ρ)

end Cert.KernelIdeal.Hand

end
-- ==== Proof.Value.Spec.lean ====
/-
  The mathematics both programs compute, over the extended reals, with no program in sight.

  z is the 8192 x 256 matrix of normalised rows (the query rows stacked on the positive rows). Both programs form
  sim r c = sum_k z r k * z c k, exponentiate twice the similarity (the kernel multiplies by 2, the reference divides
  by 1/2), drop the diagonal (the kernel selects 0 there, the reference multiplies by 1 - [r = c]) and sum each row:
  the kernel block by block of 512 columns into an accumulator that starts at zero, the reference in one sum of 8192
  terms. Only associativity and commutativity of + on the extended reals, 0 * x = 0, 1 * x = x and x / (1/2) = x * 2
  are used: nothing needs the entries to be finite.
  The positives: entry r of the reference's two off-diagonals of sim is the dot product of query row (r mod 4096) with
  positive row (r mod 4096), which is what the kernel's host code computes directly.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The float literals the two programs spell -/

/-- The pattern of `2.0`. -/
theorem ofBits_two : Ideal.ofBits .f32 0x40000000#32 = ((2 : ℝ) : EReal) := by
  simp [Ideal.ofBits, Ideal.ieee, -EReal.coe_mul]; norm_num
/-- The pattern of `0.5`. -/
theorem ofBits_half : Ideal.ofBits .f32 0x3F000000#32 = ((1 / 2 : ℝ) : EReal) := by
  simp [Ideal.ofBits, Ideal.ieee, -EReal.coe_mul]; norm_num
/-- The pattern of `1.0`. -/
theorem ofBits_one : Ideal.ofBits .f32 0x3F800000#32 = 1 := by
  simp [Ideal.ofBits, Ideal.ieee, -EReal.coe_mul]; norm_num

/-! ## The similarity matrix and the masked exponentials -/

/-- The stacked normalised rows. -/
abbrev ZMat : Type := (⟨2, ![8192, 256]⟩ : Shape).Idx → EReal
/-- One of the two halves (the query rows, or the positive rows). -/
abbrev HalfMat : Type := (⟨2, ![4096, 256]⟩ : Shape).Idx → EReal

/-- `sim r c`: the dot product of rows `r` and `c` of z. -/
def sim (z : ZMat) (r c : Fin 8192) : EReal := ∑ k : Fin 256, z (ix2 r k) * z (ix2 c k)

/-- The kernel's tile entry: zero on the diagonal, else exp (2 * sim). -/
def entK (z : ZMat) (r c : Fin 8192) : EReal := if r = c then 0 else Ideal.exp (sim z r c * ((2 : ℝ) : EReal))

/-- The reference's entry: (1 - [r = c]) * exp (sim / (1/2)). -/
def entR (z : ZMat) (r c : Fin 8192) : EReal :=
  ((1 : EReal) - (if r = c then (1 : EReal) else 0)) * Ideal.exp (Ideal.div (sim z r c) ((1 / 2 : ℝ) : EReal))

/-- Entry by entry the two are the same extended real. -/
theorem entR_eq_entK (z : ZMat) (r c : Fin 8192) : entR z r c = entK z r c := by
  unfold entR entK
  by_cases h : r = c
  · rw [if_pos h, if_pos h]
    have h0 : (1 : EReal) - 1 = 0 := by
      rw [← EReal.coe_one, ← EReal.coe_sub, sub_self, EReal.coe_zero]
    rw [h0, zero_mul]
  · rw [if_neg h, if_neg h, sub_zero, one_mul, Ideal.div_coe (by norm_num : (1 / 2 : ℝ) ≠ 0)]
    have h2 : (1 / (1 / 2) : ℝ) = 2 := by norm_num
    rw [h2]

/-! ## The denominators -/

/-- The masked row sum of row `r` over column block `j` (512 columns). -/
def blockSum (z : ZMat) (r : Fin 8192) (j : ℕ) (hj : j < 16) : EReal :=
  ∑ q : Fin 512, entK z r ⟨512 * j + q.val, by omega⟩

/-- The kernel's accumulator for row `r` after column blocks 0 … j: it starts from zero at block 0 and adds one block's
    row sum per block. -/
def accK (z : ZMat) (r : Fin 8192) : (j : ℕ) → j < 16 → EReal
  | 0, h => 0 + blockSum z r 0 h
  | j + 1, h => accK z r j (Nat.lt_of_succ_lt h) + blockSum z r (j + 1) h

/-- The kernel's denominator: the accumulator after the last column block. -/
def denomK (z : ZMat) (r : Fin 8192) : EReal := accK z r 15 (by decide)

/-- The reference's denominator: zero plus the whole masked row sum. -/
def denomR (z : ZMat) (r : Fin 8192) : EReal := 0 + ∑ c : Fin 8192, entR z r c

/-- Row `r`'s kernel entries as a function of the column NUMBER (zero past the last column, which no sum below reaches). -/
private def colN (z : ZMat) (r : Fin 8192) (c : ℕ) : EReal := if hc : c < 8192 then entK z r ⟨c, hc⟩ else 0

/-- One block's row sum, as a sum over a range of column numbers. -/
private theorem blockSum_eq (z : ZMat) (r : Fin 8192) (j : ℕ) (hj : j < 16) :
    blockSum z r j hj = ∑ q ∈ Finset.range 512, colN z r (512 * j + q) := by
  unfold blockSum
  rw [← Fin.sum_univ_eq_sum_range (fun q => colN z r (512 * j + q)) 512]
  refine Finset.sum_congr rfl (fun q _ => ?_)
  have hq : 512 * j + q.val < 8192 := by have := q.isLt; omega
  unfold colN
  rw [dif_pos hq]

/-- After blocks 0 … j the accumulator is zero plus the sum over the first 512 (j + 1) columns. -/
private theorem accK_eq (z : ZMat) (r : Fin 8192) :
    ∀ (j : ℕ) (hj : j < 16), accK z r j hj = 0 + ∑ c ∈ Finset.range (512 * (j + 1)), colN z r c
  | 0, h => by
    rw [accK, blockSum_eq]
    simp
  | j + 1, h => by
    rw [accK, accK_eq z r j, blockSum_eq, add_assoc, ← Finset.sum_range_add]
    rfl

/-- Sixteen blocks of 512 columns are the 8192 columns: the blockwise accumulation is the one sum. -/
theorem denomK_eq_denomR (z : ZMat) (r : Fin 8192) : denomK z r = denomR z r := by
  unfold denomK denomR
  rw [accK_eq]
  refine congrArg (fun x => (0 : EReal) + x) ?_
  rw [show 512 * (15 + 1) = 8192 from rfl, ← Fin.sum_univ_eq_sum_range]
  refine Finset.sum_congr rfl (fun c _ => ?_)
  rw [entR_eq_entK]
  unfold colN
  rw [dif_pos c.isLt]

/-! ## The positives -/

/-- Entry `r` of the positives: zero plus the dot product of query row `r mod 4096` with positive row `r mod 4096`. -/
def posSpec (zq zp : HalfMat) (r : Fin 8192) : EReal :=
  0 + ∑ k : Fin 256, zq (ix2 (⟨r.val % 4096, Nat.mod_lt _ (by decide)⟩ : Fin 4096) k) * zp (ix2 (⟨r.val % 4096, Nat.mod_lt _ (by decide)⟩ : Fin 4096) k)

/-- Row `r` of the stack: the query rows first, then the positive rows. -/
def stack (zq zp : HalfMat) : ZMat := fun i =>
  if h : (i 0).val < 4096 then zq (ix2 ⟨(i 0).val, h⟩ (i 1)) else zp (ix2 ⟨(i 0).val - 4096, by have h2 : (i 0).val < 8192 := (i 0).isLt; omega⟩ (i 1))

/-- A row below 4096 of the stack is that query row. -/
private theorem stack_lo (zq zp : HalfMat) (r : Fin 8192) (k : Fin 256) (a : Fin 4096) (h : r.val = a.val) :
    stack zq zp (ix2 r k) = zq (ix2 a k) := by
  unfold stack
  have h1 : ((ix2 r k) 0).val < 4096 := by
    show r.val < 4096
    have := a.isLt; omega
  rw [dif_pos h1]
  have e : (⟨((ix2 r k) 0).val, h1⟩ : Fin 4096) = a := Fin.ext h
  rw [e]
/-- A row from 4096 on of the stack is the positive row 4096 earlier. -/
private theorem stack_hi (zq zp : HalfMat) (r : Fin 8192) (k : Fin 256) (a : Fin 4096) (h : r.val = a.val + 4096) :
    stack zq zp (ix2 r k) = zp (ix2 a k) := by
  unfold stack
  have h1 : ¬ ((ix2 r k) 0).val < 4096 := by
    show ¬ r.val < 4096
    omega
  rw [dif_neg h1]
  have e : (⟨((ix2 r k) 0).val - 4096, by have := a.isLt; show r.val - 4096 < 4096; omega⟩ : Fin 4096) = a :=
    Fin.ext (show r.val - 4096 = a.val by omega)
  rw [e]

/-- The reference's positives: for r < 4096 the entry (r, r + 4096) of sim, for r ≥ 4096 the entry (r, r - 4096); with
    the zero the host's sum starts from, both are `posSpec` (the second by commutativity of the product). -/
theorem sim_offdiag_upper (zq zp : HalfMat) (r : Fin 8192) (h : r.val < 4096) :
    0 + sim (stack zq zp) r ⟨r.val + 4096, by omega⟩ = posSpec zq zp r := by
  unfold sim posSpec
  congr 1
  refine Finset.sum_congr rfl (fun k _ => ?_)
  rw [stack_lo zq zp r k ⟨r.val % 4096, Nat.mod_lt _ (by decide)⟩ (Nat.mod_eq_of_lt h).symm,
    stack_hi zq zp ⟨r.val + 4096, by omega⟩ k ⟨r.val % 4096, Nat.mod_lt _ (by decide)⟩
      (show r.val + 4096 = r.val % 4096 + 4096 by rw [Nat.mod_eq_of_lt h])]
theorem sim_offdiag_lower (zq zp : HalfMat) (r : Fin 8192) (h : 4096 ≤ r.val) :
    0 + sim (stack zq zp) r ⟨r.val - 4096, by have := r.isLt; omega⟩ = posSpec zq zp r := by
  have hr : r.val < 8192 := r.isLt
  unfold sim posSpec
  congr 1
  refine Finset.sum_congr rfl (fun k _ => ?_)
  rw [stack_hi zq zp r k ⟨r.val % 4096, Nat.mod_lt _ (by decide)⟩ (show r.val = r.val % 4096 + 4096 by omega),
    stack_lo zq zp ⟨r.val - 4096, by omega⟩ k ⟨r.val % 4096, Nat.mod_lt _ (by decide)⟩
      (show r.val - 4096 = r.val % 4096 by omega), mul_comm]

/-! ## Two 32-bit row and column numbers are equal words exactly when they are equal numbers -/

/-- Below 2^32 a number is its word: the kernel's and the reference's diagonal tests, on words, are tests on numbers. -/
theorem wordEq_iff (a b : ℕ) (ha : a < 8192) (hb : b < 8192) : (BitVec.ofNat 32 a = BitVec.ofNat 32 b) ↔ a = b := by
  constructor
  · intro h
    have h2 := congrArg BitVec.toNat h
    rw [BitVec.toNat_ofNat, BitVec.toNat_ofNat, Nat.mod_eq_of_lt (by omega), Nat.mod_eq_of_lt (by omega)] at h2
    exact h2
  · intro h
    rw [h]

end Cert.Spec

end
-- ==== Proof.Value.KernelDenom.lean ====
/-
  The kernel's output array at the ideal values, entry by entry: row r of the 8192 x 1 array is the blockwise accumulated
  masked row sum of exp (2 * sim) (`Cert.Spec.denomK`) over z as the kernel's windows read it.

  Row r lies in row block i = r / 512; the pipeline writes that block back once, at the grid point (i, 15), with the
  accumulator's value there. By induction along j the accumulator after point (i, j) holds, in its row p, the spec's
  accumulator `accK z (512 i + p) j`: the body's payload at an index is the tile's masked row sum (the matrix product
  into the zero tile as a sum over the 256 features, the two iota columns compared as numbers, the select, the lane
  sum) added to the loaded accumulator.

  The steps, in order: the matrix product of a block with the transpose of another at an entry (p, q) as the dot product
  of row p with row q; the layout and integer pieces (a column of 512 entries read at a row, the lane sum as a sum over
  the row, the row and column numbers 512 i + p and 512 j + q as 32-bit words, which are below 8192 and so compare as
  numbers); the masked tile at an entry and the payload at a row; the two windows' blocks at point t = 16 i + j as rows
  512 i + p and 512 j + q of z, whence the tile's row sum is the spec's `blockSum`; the induction along j; and the
  array: the block written back at (i, 15) is the denominators' rows 512 i … 512 i + 511, and these blocks cover the array.
-/
import proofs.«114107_j32023276159237_1_alg».proof.Proof.FrameKernelIdeal.Body
import proofs.«114107_j32023276159237_1_alg».proof.Proof.Value.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ)

namespace Denom

/-! ## The tile's matrix product at an index -/

theorem lhs_dot_0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem lhs_dot_1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
theorem rhs_dot_0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem rhs_dot_1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-- The product of a 512 x 256 block with the transpose of another, into the zero tile: entry (p, q) is the dot product
    of row p of the first with row q of the second. -/
theorem matmul_at (x0 x1 : FVec Ideal S512x256 .bf16) (p q : Fin 512) :
    matmul dot_S512x256_S512x256_S512x512_1_1_0_0_n_n none x0 x1 (constant (F := Ideal) S512x512 .f32 0x00000000#32) (ix2 p q)
      = ∑ k : Fin 256, x0 (ix2 p k) * x1 (ix2 q k) := by
  simp only [matmul]
  rw [Ideal.matmul_constant_zero_apply, ← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 p q) ((contrEquiv1 dot_S512x256_S512x256_S512x512_1_1_0_0_n_n 256 rfl rfl).symm k) = ix2 p k := funext fun a => Fin.ext (by
    match a with
    | ⟨0, _⟩ => exact lhs_dot_0 _ _
    | ⟨1, _⟩ => exact (lhs_dot_1 _ _).trans hk)
  have er : dot_S512x256_S512x256_S512x512_1_1_0_0_n_n.rhsIdx (ix2 p q) ((contrEquiv1 dot_S512x256_S512x256_S512x512_1_1_0_0_n_n 256 rfl rfl).symm k) = ix2 q k := funext fun a => Fin.ext (by
    match a with
    | ⟨0, _⟩ => exact rhs_dot_0 _ _
    | ⟨1, _⟩ => exact (rhs_dot_1 _ _).trans hk)
  rw [el, er]

/-! ## The layout and integer pieces of the payload, each at an index -/

/-- A vector of 512 entries viewed as a 512 x 1 column reads, at (p, 0), entry p. -/
theorem castCol_at (v : FVec Ideal S512 .f32) (p : Fin 512) (u : Fin 1) :
    shapeCast S512x1 v shapeCasts_S512_S512x1 (ix2 p u) = v (ix1 p) :=
  shapeCast_apply v shapeCasts_S512_S512x1 (ix2 p u) (ix1 p) (by
    rw [Shape.rowMajor_val_two, Shape.rowMajor_val_one]
    show p.val = p.val * 1 + u.val
    omega)

/-- The lane sum of a 512 x 512 tile, at row p, is the sum of the row's 512 entries. -/
theorem laneSum_at (v : FVec Ideal S512x512 .f32) (p : Fin 512) :
    multiReduction (F := Ideal) .add [1] S512 v 0x00000000#32 reduces_S512x512_S512 (.inl rfl) rfl (ix1 p)
      = ∑ q : Fin 512, v (ix2 p q) := by
  refine (Ideal.multiReduction_add_single v _ reduces_S512x512_S512 (.inl rfl) rfl (ix1 p)).trans ?_
  refine Finset.sum_congr rfl fun q _ => congrArg v ?_
  funext a
  match a with
  | ⟨0, _⟩ => rfl
  | ⟨1, _⟩ => rfl

/-- The row numbers of the tile as 32-bit words: at (p, q) the word of 512 a + p. -/
theorem rowWord_at (a : ℕ) (p q : Fin 512) :
    broadcastTo S512x512 (addi (broadcast S512x1 (Scalar.muli (BitVec.ofNat 32 a) 512#32)) (iota .tc S512x1 32 [0] iota_S512x1_d0_w32)) broadcasts_S512x1_S512x512 (ix2 p q)
      = BitVec.ofNat 32 (a * 512 + p.val) := by
  refine (broadcastTo_apply _ broadcasts_S512x1_S512x512 (ix2 p q) (ix2 p (0 : Fin 1)) (fun ax => ?_)).trans ?_
  · match ax with
    | ⟨0, _⟩ => show p.val = if (512 : ℕ) = 1 then 0 else p.val; rw [if_neg (by decide)]
    | ⟨1, _⟩ => show 0 = if (1 : ℕ) = 1 then 0 else q.val; rw [if_pos rfl]
  · show IntOp.addi (Scalar.muli (BitVec.ofNat 32 a) 512#32) (iota .tc S512x1 32 [0] iota_S512x1_d0_w32 (ix2 p 0)) = _
    rw [iota_single_apply]
    show BitVec.ofNat 32 a * BitVec.ofNat 32 512 + BitVec.ofNat 32 p.val = _
    rw [BitVec.ofNat_add, BitVec.ofNat_mul]

/-- The column numbers of the tile as 32-bit words: at (p, q) the word of 512 b + q. -/
theorem colWord_at (b : ℕ) (p q : Fin 512) :
    broadcastTo S512x512 (addi (broadcast S1x512 (Scalar.muli (BitVec.ofNat 32 b) 512#32)) (iota .tc S1x512 32 [1] iota_S1x512_d1_w32)) broadcasts_S1x512_S512x512 (ix2 p q)
      = BitVec.ofNat 32 (b * 512 + q.val) := by
  refine (broadcastTo_apply _ broadcasts_S1x512_S512x512 (ix2 p q) (ix2 (0 : Fin 1) q) (fun ax => ?_)).trans ?_
  · match ax with
    | ⟨0, _⟩ => show 0 = if (1 : ℕ) = 1 then 0 else p.val; rw [if_pos rfl]
    | ⟨1, _⟩ => show q.val = if (512 : ℕ) = 1 then 0 else q.val; rw [if_neg (by decide)]
  · show IntOp.addi (Scalar.muli (BitVec.ofNat 32 b) 512#32) (iota .tc S1x512 32 [1] iota_S1x512_d1_w32 (ix2 0 q)) = _
    rw [iota_single_apply]
    show BitVec.ofNat 32 b * BitVec.ofNat 32 512 + BitVec.ofNat 32 q.val = _
    rw [BitVec.ofNat_add, BitVec.ofNat_mul]

/-- The masked tile at (p, q): zero where the global row 512 a + p and the global column 512 b + q coincide, else the
    exponential of twice the dot product of row p of the first block with row q of the second. -/
theorem tile_at (a b : ℕ) (ha : a < 16) (hb : b < 16) (x0 x1 : FVec Ideal S512x256 .bf16) (p q : Fin 512) :
    select
        (cmpi .eq
          (broadcastTo S512x512 (addi (broadcast S512x1 (Scalar.muli (BitVec.ofNat 32 a) 512#32)) (iota .tc S512x1 32 [0] iota_S512x1_d0_w32)) broadcasts_S512x1_S512x512)
          (broadcastTo S512x512 (addi (broadcast S1x512 (Scalar.muli (BitVec.ofNat 32 b) 512#32)) (iota .tc S1x512 32 [1] iota_S1x512_d1_w32)) broadcasts_S1x512_S512x512))
        (broadcast S512x512 (FloatOps.ofBits (F := Ideal) .f32 0x00000000#32))
        (exp (mulf
          (matmul dot_S512x256_S512x256_S512x512_1_1_0_0_n_n none (shapeCast S512x256 x0 shapeCasts_S512x256_S512x256)
            (shapeCast S512x256 x1 shapeCasts_S512x256_S512x256) (constant (F := Ideal) S512x512 .f32 0x00000000#32))
          (broadcast S512x512 (FloatOps.ofBits (F := Ideal) .f32 0x40000000#32))))
        (ix2 p q)
      = if a * 512 + p.val = b * 512 + q.val then 0
          else Ideal.exp ((∑ k : Fin 256, x0 (ix2 p k) * x1 (ix2 q k)) * ((2 : ℝ) : EReal)) := by
  rw [shapeCast_self, shapeCast_self]
  show Scalar.select
      (IntOp.cmpi .eq
        (broadcastTo S512x512 (addi (broadcast S512x1 (Scalar.muli (BitVec.ofNat 32 a) 512#32)) (iota .tc S512x1 32 [0] iota_S512x1_d0_w32)) broadcasts_S512x1_S512x512 (ix2 p q))
        (broadcastTo S512x512 (addi (broadcast S1x512 (Scalar.muli (BitVec.ofNat 32 b) 512#32)) (iota .tc S1x512 32 [1] iota_S1x512_d1_w32)) broadcasts_S1x512_S512x512 (ix2 p q)))
      (Ideal.ofBits .f32 0x00000000#32)
      (Ideal.exp (matmul dot_S512x256_S512x256_S512x512_1_1_0_0_n_n none x0 x1 (constant (F := Ideal) S512x512 .f32 0x00000000#32) (ix2 p q)
        * Ideal.ofBits .f32 0x40000000#32)) = _
  rw [rowWord_at, colWord_at, matmul_at, Ideal.ofBits_zero_f32, Cert.Spec.ofBits_two]
  unfold Scalar.select
  have hp := p.isLt
  have hq := q.isLt
  by_cases h : a * 512 + p.val = b * 512 + q.val
  · rw [if_pos h]
    exact if_pos (StableHlo.Predicate.cmpi_eq_iff.mpr (congrArg (BitVec.ofNat 32) h))
  · rw [if_neg h]
    exact if_neg (fun hc => h ((Cert.Spec.wordEq_iff _ _ (by omega) (by omega)).mp (StableHlo.Predicate.cmpi_eq_iff.mp hc)))

/-- THE PAYLOAD AT AN INDEX: row p of what the body stores into the accumulator is the loaded accumulator's row p
    plus the tile's masked row sum. -/
theorem pay2_at (i : grid0.Coords) (x0 x1 : Vec Ideal S512x256 .bf16) (acc : Vec Ideal S512x1 .f32) (p : Fin 512) :
    k0_pay2 (F := Ideal) i x0 x1 acc (ix2 p 0)
      = acc (ix2 p 0) + ∑ q : Fin 512, (if (i 0).val * 512 + p.val = (i 1).val * 512 + q.val then 0
          else Ideal.exp ((∑ k : Fin 256, x0 (ix2 p k) * x1 (ix2 q k)) * ((2 : ℝ) : EReal))) := by
  unfold k0_pay2
  refine (congrFun (shapeCast_self _ shapeCasts_S512x1_S512x1) (ix2 p 0)).trans ?_
  refine (addf_apply _ _ _).trans ?_
  refine congrArg (acc (ix2 p 0) + ·) ?_
  refine (castCol_at _ p 0).trans ?_
  refine (laneSum_at _ p).trans ?_
  refine Finset.sum_congr rfl fun q _ => ?_
  exact tile_at (i 0).val (i 1).val (i 0).isLt (i 1).isLt x0 x1 p q

/-- The reset's payload is the zero column. -/
theorem pay1_at (j : S512x1.Idx) : k0_pay1 (F := Ideal) j = 0 := by
  unfold k0_pay1
  refine (congrFun (shapeCast_self _ shapeCasts_S512x1_S512x1) j).trans ?_
  exact Ideal.ofBits_zero_f32

/-! ## The windows' blocks as rows of z -/

/-- The printed index maps and the grid's coordinates, decided once over the 256 points: point t = 16 i + j sits at
    (i, j); the first and the output window are at row block i, the second at row block j. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ (grid0.coords t 0).val = t.val / 16 ∧ (grid0.coords t 1).val = t.val % 16 :=
  (by decide +kernel : ∀ t : Fin grid0.N, _)

/-- z as the kernel's windows find it. -/
abbrev zK (c : Dev nD) : Cert.Spec.ZMat := V (F := Ideal) m c main_v14

/-- Row p of the first window's block at point t = 16 i + j is row 512 i + p of z. -/
theorem zrow_at (c : Dev nD) (t : Fin cfg0.N) (i : ℕ) (hi : t.val / 16 = i) (p : Fin 512) (k : Fin 256)
    (h : 512 * i + p.val < 8192) :
    zrow m c t (ix2 p k) = zK m c (ix2 ⟨512 * i + p.val, h⟩ k) := by
  subst hi
  show V m c main_v14 (((cfg0.win 0).blk t).view.emb (ix2 p k)) = _
  refine congrArg (V m c main_v14) ?_
  obtain ⟨e0, e1, -⟩ := idx_facts t
  funext a
  apply Fin.ext
  match a with
  | ⟨0, _⟩ => show win0_0.index t (0 : Fin 2) * 512 + 1 * p.val = 512 * (t.val / 16) + p.val; rw [e0]; omega
  | ⟨1, _⟩ => show win0_0.index t (1 : Fin 2) * 256 + 1 * k.val = k.val; rw [e1]; omega

/-- Row q of the second window's block at point t = 16 i + j is row 512 j + q of z. -/
theorem zcol_at (c : Dev nD) (t : Fin cfg0.N) (j : ℕ) (hj : t.val % 16 = j) (q : Fin 512) (k : Fin 256)
    (h : 512 * j + q.val < 8192) :
    zcol m c t (ix2 q k) = zK m c (ix2 ⟨512 * j + q.val, h⟩ k) := by
  subst hj
  show V m c main_v14 (((cfg0.win 1).blk t).view.emb (ix2 q k)) = _
  refine congrArg (V m c main_v14) ?_
  obtain ⟨-, -, e0, e1, -⟩ := idx_facts t
  funext a
  apply Fin.ext
  match a with
  | ⟨0, _⟩ => show win0_1.index t (0 : Fin 2) * 512 + 1 * q.val = 512 * (t.val % 16) + q.val; rw [e0]; omega
  | ⟨1, _⟩ => show win0_1.index t (1 : Fin 2) * 256 + 1 * k.val = k.val; rw [e1]; omega

/-- The tile's masked row sum at point t = 16 i + j, row p, is the spec's row sum of row 512 i + p over column block j. -/
theorem tileSum_eq (c : Dev nD) (t : Fin cfg0.N) (i j : ℕ) (hi : t.val / 16 = i) (hj : t.val % 16 = j) (hj' : j < 16)
    (p : Fin 512) (hr : 512 * i + p.val < 8192) :
    (∑ q : Fin 512, (if (grid0.coords t 0).val * 512 + p.val = (grid0.coords t 1).val * 512 + q.val then 0
        else Ideal.exp ((∑ k : Fin 256, zrow m c t (ix2 p k) * zcol m c t (ix2 q k)) * ((2 : ℝ) : EReal))))
      = Cert.Spec.blockSum (zK m c) ⟨512 * i + p.val, hr⟩ j hj' := by
  obtain ⟨-, -, -, -, -, -, e6, e7⟩ := idx_facts t
  unfold Cert.Spec.blockSum
  refine Finset.sum_congr rfl fun q _ => ?_
  have hq := q.isLt
  have hc : 512 * j + q.val < 8192 := by omega
  unfold Cert.Spec.entK Cert.Spec.sim
  by_cases h : (⟨512 * i + p.val, hr⟩ : Fin 8192) = ⟨512 * j + q.val, hc⟩
  · have h' := Fin.mk.inj_iff.mp h
    rw [if_pos h, if_pos (by rw [e6, e7, hi, hj]; omega)]
  · rw [if_neg h, if_neg (by
      intro h'
      rw [e6, e7, hi, hj] at h'
      exact h (Fin.ext (by show 512 * i + p.val = 512 * j + q.val; omega)))]
    refine congrArg (fun s => Ideal.exp (s * ((2 : ℝ) : EReal))) ?_
    refine Finset.sum_congr rfl fun k _ => ?_
    rw [zrow_at m c t i hi p k hr, zcol_at m c t j hj q k hc]

/-! ## The accumulator along a row of the grid -/

/-- After point t = 16 i + j the accumulator's row p holds the spec's accumulator of row 512 i + p after column
    blocks 0 … j: by induction on j, the first column block restarting from the zero column. -/
theorem accAt_eq (c : Dev nD) (i : ℕ) (hi : i < 16) (p : Fin 512) :
    ∀ (j : ℕ) (hj : j < 16) (t : Fin cfg0.N), t.val = 16 * i + j →
      accAt m c t.val t.isLt (ix2 p 0)
        = Cert.Spec.accK (zK m c) ⟨512 * i + p.val, by have := p.isLt; omega⟩ j hj
  | 0, hj, t, ht => by
    have hp := p.isLt
    have h0 : t.val % 16 = 0 := by omega
    refine (congrFun (accAt_first m c t h0) (ix2 p 0)).trans ?_
    refine (pay2_at (grid0.coords t) (zrow m c t) (zcol m c t) (k0_pay1 (F := Ideal)) p).trans ?_
    rw [pay1_at, tileSum_eq m c t i 0 (by omega) (by omega) hj p (by omega)]
    rfl
  | j + 1, hj, t, ht => by
    have hp := p.isLt
    have hN : cfg0.N = 256 := N_0
    have h0 : ¬t.val % 16 = 0 := by omega
    refine (congrFun (accAt_next m c t h0) (ix2 p 0)).trans ?_
    refine (pay2_at (grid0.coords t) (zrow m c t) (zcol m c t)
      (accAt m c (t.val - 1) (Nat.lt_of_le_of_lt (Nat.sub_le _ _) t.isLt)) p).trans ?_
    rw [tileSum_eq m c t i (j + 1) (by omega) (by omega) hj p (by omega)]
    have ih := accAt_eq c i hi p j (by omega) ⟨t.val - 1, Nat.lt_of_le_of_lt (Nat.sub_le _ _) t.isLt⟩ (by show t.val - 1 = 16 * i + j; omega)
    exact congrArg (· + Cert.Spec.blockSum (zK m c) ⟨512 * i + p.val, by omega⟩ (j + 1) hj) ih

/-! ## The output array -/

/-- What the output array ends holding: row r is the spec's denominator of row r of z. -/
abbrev denomArr (c : Dev nD) : S8192x1.Idx → Elt Ideal .f32 :=
  fun idx => Cert.Spec.denomK (zK m c) ⟨(idx 0).val, (idx 0).isLt⟩

/-- The one write-back of row block i, at the point (i, 15), writes the block's rows of the denominators: the
    accumulator there has run through all sixteen column blocks. -/
theorem flushed_eq (c : Dev nD) (t : Fin cfg0.N) (hf : (cfg0.win 2).flush t = true) :
    (dats m 0 c).flushed 2 t = ((cfg0.win 2).blk t).view.read (Elt Ideal) (denomArr m c) := by
  have hN : cfg0.N = 256 := N_0
  have htN := t.isLt
  have h15 : t.val % 16 = 15 := (flush0_2 t).mp hf
  obtain ⟨-, -, -, -, e4, e5, -⟩ := idx_facts t
  show (cfg0.win 2).cut (grid0.coords t) ((dats m 0 c).after 2 t) = _
  rw [after_2]
  funext y
  have hy0 : (y 0).val < 512 := (y 0).isLt
  have hy1 : (y 1).val < 1 := (y 1).isLt
  show accAt m c t.val t.isLt ((cfg0.win 2).xinj (grid0.coords t) y) = denomArr m c (((cfg0.win 2).blk t).view.emb y)
  have ex : (cfg0.win 2).xinj (grid0.coords t) y = ix2 (⟨(y 0).val, hy0⟩ : Fin 512) (0 : Fin 1) := by
    funext a
    apply Fin.ext
    match a with
    | ⟨0, _⟩ => rfl
    | ⟨1, _⟩ => show (y 1).val = 0; omega
  rw [ex, accAt_eq m c (t.val / 16) (by omega) ⟨(y 0).val, hy0⟩ 15 (by decide) t (by omega)]
  show Cert.Spec.accK (zK m c) _ 15 _ = Cert.Spec.accK (zK m c) _ 15 _
  congr 1
  apply Fin.ext
  show 512 * (t.val / 16) + (y 0).val = win0_2.index t (0 : Fin 2) * 512 + 1 * (y 0).val
  rw [e4]; omega

/-- An index of the array is in point t's block iff each coordinate is in the block's range on its axis. -/
theorem mem_blk (t : Fin cfg0.N) (idx : S8192x1.Idx) :
    idx ∈ ((cfg0.win 2).blk t).view.set ↔ ∀ a : Fin 2, win0_2.index t a * S512x1.size a ≤ (idx a).val ∧ (idx a).val < win0_2.index t a * S512x1.size a + S512x1.size a := by
  show idx ∈ ((View.whole main_v15).slice (win0_2.rect t)).set ↔ _
  rw [View.set_slice_whole, Rect.mem_set_unit]
  exact Iff.rfl

/-- Row r lies in the block written back at the point (r / 512, 15). -/
theorem cover (idx : S8192x1.Idx) :
    ∃ t : Fin cfg0.N, (cfg0.win 2).flush t = true ∧ idx ∈ ((cfg0.win 2).blk t).view.set := by
  have hN : cfg0.N = 256 := N_0
  have h0 : (idx 0).val < 8192 := (idx 0).isLt
  have h1 : (idx 1).val < 1 := (idx 1).isLt
  have ht : 16 * ((idx 0).val / 512) + 15 < cfg0.N := by omega
  obtain ⟨-, -, -, -, e4, e5, -⟩ := idx_facts ⟨16 * ((idx 0).val / 512) + 15, ht⟩
  have e4' : win0_2.index ⟨16 * ((idx 0).val / 512) + 15, ht⟩ (0 : Fin 2) = (idx 0).val / 512 :=
    e4.trans (by show (16 * ((idx 0).val / 512) + 15) / 16 = _; omega)
  refine ⟨⟨16 * ((idx 0).val / 512) + 15, ht⟩, (flush0_2 _).mpr (by show (16 * ((idx 0).val / 512) + 15) % 16 = 15; omega), ?_⟩
  rw [mem_blk]
  intro a
  match a with
  | ⟨0, _⟩ =>
    show win0_2.index ⟨16 * ((idx 0).val / 512) + 15, ht⟩ (0 : Fin 2) * 512 ≤ (idx 0).val
      ∧ (idx 0).val < win0_2.index ⟨16 * ((idx 0).val / 512) + 15, ht⟩ (0 : Fin 2) * 512 + 512
    rw [e4']; omega
  | ⟨1, _⟩ =>
    show win0_2.index ⟨16 * ((idx 0).val / 512) + 15, ht⟩ (1 : Fin 2) * 1 ≤ (idx 1).val
      ∧ (idx 1).val < win0_2.index ⟨16 * ((idx 0).val / 512) + 15, ht⟩ (1 : Fin 2) * 1 + 1
    rw [e5]; omega

end Denom

/-- THE KERNEL'S DENOMINATOR: the output array after the run, at row `r`, is the spec's blockwise denominator of z as the
    kernel reads it (the array its two input windows share, at the kernel's entry). -/
theorem denom_value (c : Dev nD) (r : Fin 8192) :
    (dats (F := Ideal) m 0 c).arrAt 2 cfg0.N (ix2 r (0 : Fin 1))
      = Cert.Spec.denomK (V (F := Ideal) m c main_v14 : Cert.Spec.ZMat) r :=
  congrFun ((dats (F := Ideal) m 0 c).arrAt_eq_of_cover 2 (Denom.denomArr m c) (fun t hf => Denom.flushed_eq m c t hf) Denom.cover)
    (ix2 r (0 : Fin 1))

end Cert.KernelIdeal.Val

end
-- ==== Proof.Value.KernelHost.lean ====
/-
  The kernel program's host operations at the ideal values, read back: before the kernel the two row normalisations, the
  positives (the row-wise dot products, written twice) and z (the stack, whose cast to bf16 is the identity on the
  extended reals); after it the loss (`tailK`) of the positives and the kernel's denominators.
-/
import proofs.«114107_j32023276159237_1_alg».proof.Proof.FrameKernelIdeal.Launch
import proofs.«114107_j32023276159237_1_alg».proof.Proof.Value.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ)

/-- A matrix's rows each divided by max (its Euclidean norm, the small constant): the host chain both normalisations apply. -/
def normK (x : FVec Ideal S4096x256 .f32) : FVec Ideal S4096x256 .f32 :=
  Host.divf (F := Ideal) x (broadcastInDim S4096x256 ![0, 1] bcast_S4096x1_S4096x256_0_1 (maximumf (Host.sqrt (broadcastInDim S4096x1 ![0] bcast_S4096_S4096x1_0 (Host.reduceAdd (mulf x x) (constant S_ .f32 0x00000000#32) reducesTo_S4096x256_S4096_d1 h_S_))) (broadcastInDim S4096x1 ![] bcast_S_S4096x1 (constant S_ .f32 0x2B8CBCCC#32))))

/-- The loss from the positives and the denominators: mean over the 8192 rows of -(pos / (1/2) - log den). Never opened. -/
def tailK (pos den : FVec Ideal S8192 .f32) : FVec Ideal S_ .f32 :=
  Host.divf (F := Ideal) (Host.reduceAdd (Host.negf (subf (Host.divf pos (broadcastInDim S8192 ![] bcast_S_S8192 (constant S_ .f32 0x3F000000#32))) (Host.log den))) (constant S_ .f32 0x00000000#32) reducesTo_S8192_S_d0 h_S_) (constant S_ .f32 0x46000000#32)

/-! ## Reading the layout operations at an index -/

/-- Two matrices of 4096 rows laid one on the other, read at an index: the first below row 4096, the second from there on. -/
private theorem stack_read (zq zp : FVec Ideal S4096x256 .f32) (i : S8192x256.Idx) :
    concatenate S8192x256 0 [⟨S4096x256, zq⟩, ⟨S4096x256, zp⟩] concatenates_S4096x256_S4096x256_S8192x256_d0 i
      = Cert.Spec.stack zq zp i := by
  unfold Cert.Spec.stack
  by_cases h : (i 0).val < 4096
  · rw [dif_pos h]
    exact concatenate_pair_apply_left 0 zq zp _ i rfl (ix2 ⟨(i 0).val, h⟩ (i 1))
      (fun b => match b with | ⟨0, _⟩ => rfl | ⟨1, _⟩ => rfl)
  · rw [dif_neg h]
    have h2 : (i 0).val < 8192 := (i 0).isLt
    exact concatenate_pair_apply_right 0 zq zp _ i rfl rfl (ix2 ⟨(i 0).val - 4096, by omega⟩ (i 1))
      (fun b hb => match b with | ⟨0, _⟩ => absurd rfl hb | ⟨1, _⟩ => rfl)
      (by show (i 0).val - 4096 + 4096 = (i 0).val; omega)

/-- A vector of 4096 entries written twice, end to end, read at an entry: the vector at that entry modulo 4096. -/
private theorem twice_read (v : FVec Ideal S4096 .f32) (r : Fin 8192) :
    concatenate S8192 0 [⟨S4096, v⟩, ⟨S4096, v⟩] concatenates_S4096_S4096_S8192_d0 (ix1 r)
      = v (ix1 (⟨r.val % 4096, Nat.mod_lt _ (by decide)⟩ : Fin 4096)) := by
  by_cases h : r.val < 4096
  · rw [concatenate_pair_apply_left 0 v v _ (ix1 r) rfl (ix1 ⟨r.val, h⟩) (fun b => match b with | ⟨0, _⟩ => rfl)]
    exact congrArg v (congrArg ix1 (Fin.ext (Nat.mod_eq_of_lt h).symm))
  · have h2 : r.val < 8192 := r.isLt
    rw [concatenate_pair_apply_right 0 v v _ (ix1 r) rfl rfl (ix1 ⟨r.val - 4096, by omega⟩)
      (fun b hb => match b with | ⟨0, _⟩ => absurd rfl hb) (by show r.val - 4096 + 4096 = r.val; omega)]
    exact congrArg v (congrArg ix1 (Fin.ext (by show r.val - 4096 = r.val % 4096; omega)))

/-- The row sum of an entrywise product of two matrices, from zero, read at a row: zero plus the dot product of the two rows. -/
private theorem rowdot_read (zq zp : FVec Ideal S4096x256 .f32) (q : Fin 4096) :
    Host.reduceAdd (F := Ideal) (mulf zq zp) (constant S_ .f32 0x00000000#32) reducesTo_S4096x256_S4096_d1 h_S_ (ix1 q)
      = 0 + ∑ k : Fin 256, zq (ix2 q k) * zp (ix2 q k) := by
  simp only [Host.reduceAdd, Ideal.hostReduceAdd_def]
  rw [Ideal.hostReduceAdd_single reducesTo_S4096x256_S4096_d1 (by decide)]
  refine congrArg₂ (· + ·) ?_ (Finset.sum_congr rfl fun k _ => ?_)
  · exact Ideal.ofBits_zero_f32
  · show zq _ * zp _ = _
    have e : (Shape.Reduces.lift (s := S4096x256) (t := S4096) (a := 1) (by decide) (ix1 q) k) = ix2 q ⟨k.val, k.isLt⟩ :=
      funext fun a => Fin.ext (by match a with | ⟨0, _⟩ => rfl | ⟨1, _⟩ => rfl)
    exact congrArg₂ (· * ·) (congrArg zq e) (congrArg zp e)

/-- A column of 8192 entries read as a vector: entry i is the column's entry (i, 0), both being entry i in row-major order. -/
private theorem col_read {α : Type} (x : S8192x1.Idx → α) (i : S8192.Idx) :
    shapeCast S8192 x shapeCasts_S8192x1_S8192 i = x (ix2 (i 0) (0 : Fin 1)) :=
  shapeCast_apply x _ i (ix2 (i 0) (0 : Fin 1)) (by
    rw [Shape.rowMajor_val_two, Shape.rowMajor_val_one]
    show (i 0).val * 1 + 0 = (i 0).val
    omega)

/-! ## The two buffers the kernel's side of the claim reads, as whole arrays -/

/-- z at the kernel's entry: the cast of the stack of the two normalised matrices. -/
private theorem V_z_array (c : Dev nD) :
    V (F := Ideal) m c main_v14
      = truncf (F := Ideal) .bf16 (concatenate S8192x256 0 [⟨S4096x256, normK (m ((c.tc : Thread nD τ).loc main_arg0))⟩, ⟨S4096x256, normK (m ((c.tc : Thread nD τ).loc main_arg1))⟩] concatenates_S4096x256_S4096x256_S8192x256_d0) bitsLt_bf16_f32 := by
  show StableHlo.after _ _ (Proc.devRef .tc main_v14) = _
  dsimp only [V, V0, prefixOps]; simp only [hostOps0, hostOps0_1, hostOps0_2, hostOps0_3, List.flatten_cons, List.flatten_nil, List.append_nil, List.cons_append, List.nil_append]; after_results_simp
  rfl

/-- The positives at the kernel's entry: the row sums of the product of the two normalised matrices, written twice. -/
private theorem V_pos_array (c : Dev nD) :
    V (F := Ideal) m c main_v12
      = concatenate S8192 0 [⟨S4096, Host.reduceAdd (F := Ideal) (mulf (normK (m ((c.tc : Thread nD τ).loc main_arg0))) (normK (m ((c.tc : Thread nD τ).loc main_arg1)))) (constant S_ .f32 0x00000000#32) reducesTo_S4096x256_S4096_d1 h_S_⟩, ⟨S4096, Host.reduceAdd (F := Ideal) (mulf (normK (m ((c.tc : Thread nD τ).loc main_arg0))) (normK (m ((c.tc : Thread nD τ).loc main_arg1)))) (constant S_ .f32 0x00000000#32) reducesTo_S4096x256_S4096_d1 h_S_⟩] concatenates_S4096_S4096_S8192_d0 := by
  show StableHlo.after _ _ (Proc.devRef .tc main_v12) = _
  dsimp only [V, V0, prefixOps]; simp only [hostOps0, hostOps0_1, hostOps0_2, hostOps0_3, List.flatten_cons, List.flatten_nil, List.append_nil, List.cons_append, List.nil_append]; after_results_simp
  rfl

/-! ## The three readings -/

/-- z as the kernel's windows find it: the normalised query rows stacked on the normalised positive rows. -/
theorem V_z (c : Dev nD) :
    (V (F := Ideal) m c main_v14 : Cert.Spec.ZMat)
      = Cert.Spec.stack (normK (m ((c.tc : Thread nD τ).loc main_arg0))) (normK (m ((c.tc : Thread nD τ).loc main_arg1))) := by
  -- the cast to bf16 is the identity on the extended reals; the stack is read index by index
  refine (V_z_array m c).trans ?_
  funext i
  exact stack_read _ _ i

/-- The positives buffer at the kernel's entry, entry by entry. -/
theorem V_pos (c : Dev nD) (r : Fin 8192) :
    V (F := Ideal) m c main_v12 (ix1 r)
      = Cert.Spec.posSpec (normK (m ((c.tc : Thread nD τ).loc main_arg0))) (normK (m ((c.tc : Thread nD τ).loc main_arg1))) r := by
  refine (congrFun (V_pos_array m c) (ix1 r)).trans ?_
  rw [twice_read, rowdot_read]
  rfl

/-- The result buffer after the run: the loss of the positives and of the output array read as a vector of 8192 rows. -/
theorem resultOf_eq (c : Dev nD) :
    resultOf (F := Ideal) m c
      = tailK (V (F := Ideal) m c main_v12) (fun i => (dats (F := Ideal) m 0 c).arrAt 2 cfg0.N (ix2 (i 0) (0 : Fin 1))) := by
  -- at the exit the positives are as at the entry, and the output array is what the write-backs left
  have e12 : Wexit m c (Proc.devRef .tc main_v12) = V (F := Ideal) m c main_v12 := by
    unfold Wexit; exact Function.update_of_ne (StableHlo.devRef_ne_of_ne (by decide)) _ _
  have e15 : Wexit m c (Proc.devRef .tc main_v15) = (dats (F := Ideal) m 0 c).arrAt 2 cfg0.N := by
    unfold Wexit; exact Function.update_self _ _ _
  unfold resultOf
  simp only [hostOps1]
  after_results_simp
  -- the ten operations after the reshape are the loss, as it stands
  show tailK (Wexit m c (Proc.devRef .tc main_v12))
      (fun i => shapeCast _ (Wexit m c (Proc.devRef .tc main_v15)) shapeCasts_S8192x1_S8192 i) = _
  rw [e12, e15]
  exact congrArg (tailK _) (funext fun i => col_read _ i)

end Cert.KernelIdeal.Val

end
-- ==== Proof.Value.KernelValue.lean ====
/-
  The kernel program's result at the ideal values: the loss of positives and denominators that are, entry by entry, the
  spec's, over the normalised rows of the two arguments.
-/
import proofs.«114107_j32023276159237_1_alg».proof.Proof.Value.KernelDenom
import proofs.«114107_j32023276159237_1_alg».proof.Proof.Value.KernelHost

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ)

theorem kernel_result (c : Dev nD) :
    ∃ pos den : FVec Ideal S8192 .f32,
      resultOf (F := Ideal) m c = tailK pos den
      ∧ (∀ r : Fin 8192, pos (ix1 r) = Cert.Spec.posSpec (normK (m ((c.tc : Thread nD τ).loc main_arg0))) (normK (m ((c.tc : Thread nD τ).loc main_arg1))) r)
      ∧ (∀ r : Fin 8192, den (ix1 r) = Cert.Spec.denomK (Cert.Spec.stack (normK (m ((c.tc : Thread nD τ).loc main_arg0))) (normK (m ((c.tc : Thread nD τ).loc main_arg1)))) r) := by
  refine ⟨_, _, resultOf_eq m c, fun r => V_pos m c r, fun r => ?_⟩
  have h := denom_value m c r
  rw [V_z m c] at h
  exact h

end Cert.KernelIdeal.Val

end
-- ==== Proof.RefImports.lean ====
/- The reference program's run and its stage-by-stage reading, brought in for the value bridge. -/
import proofs.«114107_j32023276159237_1_alg».proof.Proof.Gen.ReferenceIdeal.Read
-- ==== Proof.Value.RefBase.lean ====
/-
  The reference program at the ideal values, first part: the row normalisation and the loss as functions, the stacked
  normalised rows read at an index, and the similarity matrix (the product of the stack with its transpose) as the
  spec's `sim`.
-/
import proofs.«114107_j32023276159237_1_alg».proof.Proof.RefImports
import proofs.«114107_j32023276159237_1_alg».proof.Proof.Value.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Val

open Cert.ReferenceIdeal Cert.ReferenceIdeal.Gen Cert.ReferenceIdeal.Value Cert.ReferenceIdeal.Read
open Idealize.ShloMosaic Idealize.ShloMosaic.TcCoe Idealize.ShloMosaic.ValueIdx
open Idealize.SL Idealize.SL.Sem

/-- A matrix's rows each divided by max (its Euclidean norm, the small constant). -/
def normR (x : FVec Ideal S4096x256 .f32) : FVec Ideal S4096x256 .f32 :=
  Host.divf (F := Ideal) x (broadcastInDim S4096x256 ![0, 1] bcast_S4096x1_S4096x256_0_1 (maximumf (Host.sqrt (broadcastInDim S4096x1 ![0] bcast_S4096_S4096x1_0 (Host.reduceAdd (mulf x x) (constant S_ .f32 0x00000000#32) reducesTo_S4096x256_S4096_d1 h_S_))) (broadcastInDim S4096x1 ![] bcast_S_S4096x1 (constant S_ .f32 0x2B8CBCCC#32))))

/-- The loss from the positives and the denominators: mean over the 8192 rows of -(pos / (1/2) - log den). Never opened. -/
def tailR (pos den : FVec Ideal S8192 .f32) : FVec Ideal S_ .f32 :=
  Host.divf (F := Ideal) (Host.reduceAdd (Host.negf (subf (Host.divf pos (broadcastInDim S8192 ![] bcast_S_S8192 (constant S_ .f32 0x3F000000#32))) (Host.log den))) (constant S_ .f32 0x00000000#32) reducesTo_S8192_S_d0 h_S_) (constant S_ .f32 0x46000000#32)

variable (x0 x1 : (⟨S4096x256, .f32⟩ : BufTy).Contents (Elt Ideal))

/-- The two normalised matrices are `normR` of the two arguments. -/
theorem v4_eq : val_main_v4 (F := Ideal) x0 = normR x0 := by
  unfold val_main_v4 val_main_v3 val_main_v2 val_main_v1 val_main_cst val_main_v0 val_main_call0_v2 val_main_call0_v1
    val_main_call0_cst val_main_call0_v0 normR
  rfl
theorem v9_eq : val_main_v9 (F := Ideal) x1 = normR x1 := by
  unfold val_main_v9 val_main_v8 val_main_v7 val_main_v6 val_main_cst_0 val_main_v5 val_main_call1_v2 val_main_call1_v1
    val_main_call1_cst val_main_call1_v0 normR
  rfl

/-- The stacked rows, read at an index: the query rows first, then the positive rows. -/
theorem z_eq : (val_main_v10 (F := Ideal) x0 x1 : Cert.Spec.ZMat) = Cert.Spec.stack (normR x0) (normR x1) := by
  funext i
  unfold val_main_v10 Cert.Spec.stack
  rw [v4_eq, v9_eq]
  by_cases h : (i 0).val < 4096
  · -- a row of the first piece: the same row of the normalised query
    rw [dif_pos h]
    exact concatenate_pair_apply_left (0 : Fin 2) (normR x0) (normR x1)
      concatenates_S4096x256_S4096x256_S8192x256_d0 i rfl (ix2 ⟨(i 0).val, h⟩ (i 1))
      (fun b => match b with
        | ⟨0, _⟩ => rfl
        | ⟨1, _⟩ => rfl)
  · -- a row of the second piece: that row less 4096 of the normalised positives
    rw [dif_neg h]
    have h2 : (i 0).val < 8192 := (i 0).isLt
    exact concatenate_pair_apply_right (0 : Fin 2) (normR x0) (normR x1)
      concatenates_S4096x256_S4096x256_S8192x256_d0 i rfl rfl (ix2 ⟨(i 0).val - 4096, by omega⟩ (i 1))
      (fun b hb => match b, hb with
        | ⟨0, _⟩, hb => absurd rfl hb
        | ⟨1, _⟩, _ => rfl)
      (by show (i 0).val - 4096 + 4096 = (i 0).val; omega)

/-- The similarity matrix, entry by entry: the dot product of two rows of the stack. -/
theorem sim_eq (r c : Fin 8192) :
    val_main_v12 (F := Ideal) x0 x1 (ix2 r c) = Cert.Spec.sim (Cert.Spec.stack (normR x0) (normR x1)) r c := by
  rw [val_main_v12_apply]
  unfold Cert.Spec.sim
  refine Finset.sum_congr rfl fun k _ => ?_
  -- the left factor is the stack at (r, k); the right, the transpose at (k, c), is the stack at (c, k)
  have e1 : lidx_main_v12 (ix2 r c) k = ix2 r k :=
    funext fun a => Fin.ext (by match a with | ⟨0, _⟩ => rfl | ⟨1, _⟩ => rfl)
  have e2 : idx_main_v11 (ridx_main_v12 (ix2 r c) k) = ix2 c k :=
    funext fun a => Fin.ext (by match a with | ⟨0, _⟩ => rfl | ⟨1, _⟩ => rfl)
  rw [val_main_v11_apply, e1, e2, z_eq]

end Cert.ReferenceIdeal.Val

end
-- ==== Proof.Value.RefPos.lean ====
/-
  The reference's positives: the two gathers read the similarity matrix at (r, r + 4096) and at (r + 4096, r), the row and
  column numbers computed as 32-bit words (an iota, a constant added, a wrap-around for negative numbers that never
  fires); stacked, entry r is the dot product of query row r mod 4096 with positive row r mod 4096.

  In order: a gather of single elements of a matrix, its start indices the rows of a two-column table, reads the matrix
  at (row word, column word), each read signed and clamped into the matrix; the words of the two tables are the row
  number and the row number plus 4096 (both far below 2^31, so the test "negative" fails and the clamp does nothing);
  the two tables' columns and the two gathered halves are then read through their concatenations.
-/
import proofs.«114107_j32023276159237_1_alg».proof.Proof.Value.RefBase
import Idealize.ShloMosaic.Lib.StableHlo.Predicate

set_option maxRecDepth 16384

noncomputable section

namespace Cert.ReferenceIdeal.Val

open Cert.ReferenceIdeal Cert.ReferenceIdeal.Gen Cert.ReferenceIdeal.Value Cert.ReferenceIdeal.Read
open Idealize.ShloMosaic Idealize.ShloMosaic.TcCoe Idealize.ShloMosaic.ValueIdx
open Idealize.SL Idealize.SL.Sem

/-! ## A gather of single matrix elements at a two-column table of start indices -/

/-- The dimension numbers of `x[rows, cols]` for a matrix `x : [N, M]` and a table of start indices `[n, 2]`: both
    operand axes collapsed and start-indexed, slices of one element, no offset or batching axes, the index vector along
    the table's second axis; the result is `[n]`. -/
private abbrev pointDims (N M n : Nat)
    (wf : GatherDims.WF ⟨2, ![N, M]⟩ ⟨2, ![n, 2]⟩ ⟨1, ![n]⟩ [] [0, 1] [] [0, 1] [] 1 ![1, 1]) :
    GatherDims ⟨2, ![N, M]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

/-- Result element `p` is the matrix at (table[p, 0], table[p, 1]), each start index read as a signed integer and
    clamped into its axis. -/
private theorem pointGather_apply {α : Type} {N M n w : Nat} (hN : 0 < N) (hM : 0 < M)
    (wf : GatherDims.WF ⟨2, ![N, M]⟩ ⟨2, ![n, 2]⟩ ⟨1, ![n]⟩ [] [0, 1] [] [0, 1] [] 1 ![1, 1])
    (x : (⟨2, ![N, M]⟩ : Shape).Idx → α) (idx : IVec ⟨2, ![n, 2]⟩ w) (p : Fin n) :
    Host.gather (pointDims N M n wf) x idx (ix1 p)
      = x (ix2 (⟨min (idx (ix2 p (0 : Fin 2))).toInt.toNat (N - 1), by omega⟩ : Fin N)
               (⟨min (idx (ix2 p (1 : Fin 2))).toInt.toNat (M - 1), by omega⟩ : Fin M)) := by
  unfold Host.gather
  congr 1
  funext a
  refine Fin.ext ?_
  show (pointDims N M n wf).start (ix1 p) idx a + (pointDims N M n wf).batchCoord (ix1 p) a
    + (pointDims N M n wf).offCoord (ix1 p) a = _
  rw [GatherDims.batchCoord_eq_zero _ _ _ List.not_mem_nil, Nat.add_zero]
  match a with
  | ⟨0, _⟩ =>
    -- the row axis: collapsed (no offset), its start the table's first column
    have hs : (⟨0, by decide⟩ : Fin 2) ∈ (pointDims N M n wf).startIndexMap := List.mem_cons_self
    rw [GatherDims.offCoord_eq_zero _ _ _ (fun h => ((GatherDims.mem_sKept _ _).mp h).1 List.mem_cons_self), Nat.add_zero]
    unfold GatherDims.start
    rw [dif_pos hs]
    have hsi : (pointDims N M n wf).siIdx (ix1 p)
        ⟨List.idxOf (⟨0, by decide⟩ : Fin 2) (pointDims N M n wf).startIndexMap, List.idxOf_lt_length_iff.2 hs⟩
        = ix2 p (0 : Fin 2) := by
      funext b; refine Fin.ext ?_
      match b with
      | ⟨0, _⟩ => rfl
      | ⟨1, _⟩ => rfl
    rw [hsi]
    rfl
  | ⟨1, _⟩ =>
    -- the column axis: collapsed, its start the table's second column
    have hs : (⟨1, by decide⟩ : Fin 2) ∈ (pointDims N M n wf).startIndexMap :=
      List.mem_cons_of_mem _ List.mem_cons_self
    rw [GatherDims.offCoord_eq_zero _ _ _
      (fun h => ((GatherDims.mem_sKept _ _).mp h).1 (List.mem_cons_of_mem _ List.mem_cons_self)), Nat.add_zero]
    unfold GatherDims.start
    rw [dif_pos hs]
    have hsi : (pointDims N M n wf).siIdx (ix1 p)
        ⟨List.idxOf (⟨1, by decide⟩ : Fin 2) (pointDims N M n wf).startIndexMap, List.idxOf_lt_length_iff.2 hs⟩
        = ix2 p (1 : Fin 2) := by
      funext b; refine Fin.ext ?_
      match b with
      | ⟨0, _⟩ => rfl
      | ⟨1, _⟩ => rfl
    rw [hsi]
    rfl

/-! ## The words -/

/-- A select on "this word, below 2^31, is negative" keeps the word. -/
private theorem sel_nonneg (w y : BitVec 32) (hw : w.toNat < 2 ^ 31) :
    Scalar.select (IntOp.cmpi .slt w 0#32) y w = w := by
  have hne : ¬ IntOp.cmpi .slt w 0#32 = 1#1 := by
    intro h
    have h2 := (StableHlo.Predicate.slt_iff_toNat (a := w) (b := 0#32) hw (by decide)).mp h
    exact Nat.not_lt_zero _ h2
  rw [eq_zero_of_ne_one hne, select_zero]

/-- The word 4096 plus the word of a number is the word of the sum. -/
private theorem add_word (n : ℕ) : IntOp.addi 4096#32 (BitVec.ofNat 32 n) = BitVec.ofNat 32 (4096 + n) := by
  unfold IntOp.addi
  exact (BitVec.ofNat_add 4096 n).symm

/-- The word of a number below 8192, read signed and clamped into [0, 8191], is the number. -/
private theorem clamp_word (n : ℕ) (hn : n < 8192) : min (BitVec.ofNat 32 n).toInt.toNat (8192 - 1) = n := by
  rw [StableHlo.Predicate.toInt_ofNat_small n (by omega), Int.toNat_natCast]
  omega

/-- The gather of the program at a row `a` of a table whose two words there are the numbers of `r` and `c`: the
    matrix at (r, c). -/
private theorem gather_at {α : Type} (x : S8192x8192.Idx → α) (idx : IVec S4096x2 32) (a : Fin 4096) (r c : Fin 8192)
    (hr : idx (ix2 a (0 : Fin 2)) = BitVec.ofNat 32 r.val) (hc : idx (ix2 a (1 : Fin 2)) = BitVec.ofNat 32 c.val) :
    Host.gather gather_S8192x8192_S4096x2_S4096_n_01_n_n_01_1_11 x idx (ix1 a) = x (ix2 r c) := by
  have wf : GatherDims.WF ⟨2, ![8192, 8192]⟩ ⟨2, ![4096, 2]⟩ ⟨1, ![4096]⟩ [] [0, 1] [] [0, 1] [] 1 ![1, 1] :=
    Facts₀.gather_S8192x8192_S4096x2_S4096_n_01_n_n_01_1_11_wf
  have e : gather_S8192x8192_S4096x2_S4096_n_01_n_n_01_1_11 = pointDims 8192 8192 4096 wf := rfl
  rw [e, pointGather_apply (by decide) (by decide)]
  refine congrArg x ?_
  funext d
  match d with
  | ⟨0, _⟩ =>
    refine Fin.ext ?_
    show min (idx (ix2 a (0 : Fin 2))).toInt.toNat (8192 - 1) = r.val
    rw [hr]
    exact clamp_word r.val r.isLt
  | ⟨1, _⟩ =>
    refine Fin.ext ?_
    show min (idx (ix2 a (1 : Fin 2))).toInt.toNat (8192 - 1) = c.val
    rw [hc]
    exact clamp_word c.val c.isLt

/-! ## The two tables of start indices -/

/-- First diagonal, the row numbers: the iota, the wrap-around never taken. -/
private theorem call2_v8_word (i : S4096.Idx) : val_main_call2_v8 (F := Ideal) i = BitVec.ofNat 32 (i 0).val := by
  have hi : (i 0).val < 4096 := (i 0).isLt
  rw [val_main_call2_v8_apply, val_main_call2_v5_apply, val_main_call2_v0_apply, val_main_call2_v4_apply,
    val_main_call2_c_0_apply]
  exact sel_nonneg _ _ (by rw [BitVec.toNat_ofNat]; omega)

/-- First diagonal, the column numbers before the wrap-around: 4096 plus the iota. -/
private theorem call2_v3_word (i : S4096.Idx) : val_main_call2_v3 (F := Ideal) i = BitVec.ofNat 32 (4096 + (i 0).val) := by
  rw [val_main_call2_v3_apply, val_main_call2_v2_apply, val_main_call2_c_apply, val_main_call2_v1_apply]
  exact add_word _

/-- First diagonal, the column numbers: the wrap-around never taken. -/
private theorem call2_v13_word (i : S4096.Idx) :
    val_main_call2_v13 (F := Ideal) i = BitVec.ofNat 32 (4096 + (i 0).val) := by
  have hi : (i 0).val < 4096 := (i 0).isLt
  rw [val_main_call2_v13_apply, val_main_call2_v10_apply, val_main_call2_v9_apply, val_main_call2_c_2_apply,
    call2_v3_word]
  exact sel_nonneg _ _ (by rw [BitVec.toNat_ofNat]; omega)

/-- Second diagonal, the row numbers before the wrap-around: 4096 plus the iota. -/
private theorem call3_v3_word (i : S4096.Idx) : val_main_call3_v3 (F := Ideal) i = BitVec.ofNat 32 (4096 + (i 0).val) := by
  rw [val_main_call3_v3_apply, val_main_call3_v2_apply, val_main_call3_c_apply, val_main_call3_v1_apply]
  exact add_word _

/-- Second diagonal, the row numbers. -/
private theorem call3_v8_word (i : S4096.Idx) :
    val_main_call3_v8 (F := Ideal) i = BitVec.ofNat 32 (4096 + (i 0).val) := by
  have hi : (i 0).val < 4096 := (i 0).isLt
  rw [val_main_call3_v8_apply, val_main_call3_v5_apply, val_main_call3_v4_apply, val_main_call3_c_0_apply,
    call3_v3_word]
  exact sel_nonneg _ _ (by rw [BitVec.toNat_ofNat]; omega)

/-- Second diagonal, the column numbers: the iota. -/
private theorem call3_v13_word (i : S4096.Idx) : val_main_call3_v13 (F := Ideal) i = BitVec.ofNat 32 (i 0).val := by
  have hi : (i 0).val < 4096 := (i 0).isLt
  rw [val_main_call3_v13_apply, val_main_call3_v10_apply, val_main_call3_v0_apply, val_main_call3_v9_apply,
    val_main_call3_c_2_apply]
  exact sel_nonneg _ _ (by rw [BitVec.toNat_ofNat]; omega)

/-- The first table at (a, 0): the word of a. -/
private theorem call2_col0 (a : Fin 4096) :
    val_main_call2_v16 (F := Ideal) (ix2 a (0 : Fin 2)) = BitVec.ofNat 32 a.val := by
  unfold val_main_call2_v16
  refine (concatenate_pair_apply_left (s₁ := S4096x1) (s₂ := S4096x1) (t := S4096x2) _ _ _ _ (ix2 a (0 : Fin 2)) rfl
    (ix2 a (0 : Fin 1)) (fun b => match b with | ⟨0, _⟩ => rfl | ⟨1, _⟩ => rfl)).trans ?_
  rw [val_main_call2_v14_apply, call2_v8_word]

/-- The first table at (a, 1): the word of 4096 + a. -/
private theorem call2_col1 (a : Fin 4096) :
    val_main_call2_v16 (F := Ideal) (ix2 a (1 : Fin 2)) = BitVec.ofNat 32 (4096 + a.val) := by
  unfold val_main_call2_v16
  refine (concatenate_pair_apply_right (s₁ := S4096x1) (s₂ := S4096x1) (t := S4096x2) _ _ _ _ (ix2 a (1 : Fin 2)) rfl rfl
    (ix2 a (0 : Fin 1)) (fun b => match b with | ⟨0, _⟩ => fun _ => rfl | ⟨1, _⟩ => fun hne => absurd rfl hne) rfl).trans ?_
  rw [val_main_call2_v15_apply, call2_v13_word]

/-- The second table at (a, 0): the word of 4096 + a. -/
private theorem call3_col0 (a : Fin 4096) :
    val_main_call3_v16 (F := Ideal) (ix2 a (0 : Fin 2)) = BitVec.ofNat 32 (4096 + a.val) := by
  unfold val_main_call3_v16
  refine (concatenate_pair_apply_left (s₁ := S4096x1) (s₂ := S4096x1) (t := S4096x2) _ _ _ _ (ix2 a (0 : Fin 2)) rfl
    (ix2 a (0 : Fin 1)) (fun b => match b with | ⟨0, _⟩ => rfl | ⟨1, _⟩ => rfl)).trans ?_
  rw [val_main_call3_v14_apply, call3_v8_word]

/-- The second table at (a, 1): the word of a. -/
private theorem call3_col1 (a : Fin 4096) :
    val_main_call3_v16 (F := Ideal) (ix2 a (1 : Fin 2)) = BitVec.ofNat 32 a.val := by
  unfold val_main_call3_v16
  refine (concatenate_pair_apply_right (s₁ := S4096x1) (s₂ := S4096x1) (t := S4096x2) _ _ _ _ (ix2 a (1 : Fin 2)) rfl rfl
    (ix2 a (0 : Fin 1)) (fun b => match b with | ⟨0, _⟩ => fun _ => rfl | ⟨1, _⟩ => fun hne => absurd rfl hne) rfl).trans ?_
  rw [val_main_call3_v15_apply, call3_v13_word]

/-! ## The two off-diagonals and their stack -/

variable (x0 x1 : (⟨S4096x256, .f32⟩ : BufTy).Contents (Elt Ideal))

/-- The upper off-diagonal: entry a is the similarity at (a, a + 4096). -/
private theorem v13_at (a : Fin 4096) (r c : Fin 8192) (hr : a.val = r.val) (hc : 4096 + a.val = c.val) :
    val_main_v13 (F := Ideal) x0 x1 (ix1 a) = val_main_v12 (F := Ideal) x0 x1 (ix2 r c) := by
  unfold val_main_v13
  exact gather_at _ _ a r c (by rw [call2_col0, hr]) (by rw [call2_col1, hc])

/-- The lower off-diagonal: entry a is the similarity at (a + 4096, a). -/
private theorem v14_at (a : Fin 4096) (r c : Fin 8192) (hr : 4096 + a.val = r.val) (hc : a.val = c.val) :
    val_main_v14 (F := Ideal) x0 x1 (ix1 a) = val_main_v12 (F := Ideal) x0 x1 (ix2 r c) := by
  unfold val_main_v14
  exact gather_at _ _ a r c (by rw [call3_col0, hr]) (by rw [call3_col1, hc])

/-- The stack below 4096: the upper off-diagonal. -/
private theorem v15_lo (r : Fin 8192) (h : r.val < 4096) :
    val_main_v15 (F := Ideal) x0 x1 (ix1 r) = val_main_v13 (F := Ideal) x0 x1 (ix1 ⟨r.val, h⟩) := by
  unfold val_main_v15
  exact concatenate_pair_apply_left (s₁ := S4096) (s₂ := S4096) (t := S8192) _ _ _ _ (ix1 r) rfl (ix1 ⟨r.val, h⟩)
    (fun b => match b with | ⟨0, _⟩ => rfl)

/-- The stack from 4096 on: the lower off-diagonal, 4096 entries earlier. -/
private theorem v15_hi (r : Fin 8192) (h : 4096 ≤ r.val) :
    val_main_v15 (F := Ideal) x0 x1 (ix1 r)
      = val_main_v14 (F := Ideal) x0 x1 (ix1 ⟨r.val - 4096, by have := r.isLt; omega⟩) := by
  unfold val_main_v15
  exact concatenate_pair_apply_right (s₁ := S4096) (s₂ := S4096) (t := S8192) _ _ _ _ (ix1 r) rfl rfl
    (ix1 ⟨r.val - 4096, by have := r.isLt; omega⟩)
    (fun b => match b with | ⟨0, _⟩ => fun hne => absurd rfl hne)
    (by show r.val - 4096 + 4096 = r.val; omega)

/-- The positives as the loss's sum meets them (divided by 1/2 later, summed from zero inside `posSpec`): NOTE the spec's
    `posSpec` carries a leading `0 +`; the gathered entry itself is the bare dot product, so this states the entry with
    the zero added. -/
theorem ref_pos (r : Fin 8192) :
    0 + val_main_v15 (F := Ideal) x0 x1 (ix1 r) = Cert.Spec.posSpec (normR x0) (normR x1) r := by
  have hr : r.val < 8192 := r.isLt
  by_cases h : r.val < 4096
  · rw [v15_lo x0 x1 r h,
      v13_at x0 x1 ⟨r.val, h⟩ r ⟨r.val + 4096, by omega⟩ rfl (show 4096 + r.val = r.val + 4096 by omega), sim_eq]
    exact Cert.Spec.sim_offdiag_upper _ _ r h
  · have h' : 4096 ≤ r.val := Nat.le_of_not_lt h
    rw [v15_hi x0 x1 r h',
      v14_at x0 x1 ⟨r.val - 4096, by omega⟩ r ⟨r.val - 4096, by omega⟩
        (show 4096 + (r.val - 4096) = r.val by omega) rfl, sim_eq]
    exact Cert.Spec.sim_offdiag_lower _ _ r h'

end Cert.ReferenceIdeal.Val

end
-- ==== Proof.Value.RefDen.lean ====
/-
  The reference's denominators: row r of the masked exponentials summed over all 8192 columns from zero. The mask is
  1 minus the diagonal indicator (two iotas compared as 32-bit words, converted to a float), the exponent the
  similarity divided by 1/2.
-/
import proofs.«114107_j32023276159237_1_alg».proof.Proof.Value.RefBase
import Idealize.ShloMosaic.Lib.StableHlo.Predicate

set_option maxRecDepth 16384

noncomputable section

namespace Cert.ReferenceIdeal.Val

open Cert.ReferenceIdeal Cert.ReferenceIdeal.Gen Cert.ReferenceIdeal.Value Cert.ReferenceIdeal.Read
open Idealize.ShloMosaic Idealize.ShloMosaic.TcCoe Idealize.ShloMosaic.ValueIdx
open Idealize.SL Idealize.SL.Sem

variable (x0 x1 : (⟨S4096x256, .f32⟩ : BufTy).Contents (Elt Ideal))

/-- The diagonal indicator: the row number plus zero and the column number, both below 8192, are equal 32-bit words
    exactly when they are equal numbers, and the one-bit answer read unsigned is 1 or 0. -/
private theorem diag_word (r k : Fin 8192) :
    (((IntOp.cmpi .eq (IntOp.addi (BitVec.ofNat 32 r.val) 0#32) (BitVec.ofNat 32 k.val)).toNat : ℝ) : EReal)
      = if r = k then (1 : EReal) else 0 := by
  have h0 : IntOp.addi (BitVec.ofNat 32 r.val) 0#32 = BitVec.ofNat 32 r.val := by
    unfold IntOp.addi; exact BitVec.add_zero _
  rw [h0]
  by_cases h : r = k
  · have e : IntOp.cmpi .eq (BitVec.ofNat 32 r.val) (BitVec.ofNat 32 k.val) = 1#1 :=
      StableHlo.Predicate.cmpi_eq_iff.2 (by rw [h])
    rw [if_pos h, e]
    norm_num
  · have e : IntOp.cmpi .eq (BitVec.ofNat 32 r.val) (BitVec.ofNat 32 k.val) = 0#1 :=
      eq_zero_of_ne_one fun hh =>
        h (Fin.ext ((Cert.Spec.wordEq_iff r.val k.val r.isLt k.isLt).1 (StableHlo.Predicate.cmpi_eq_iff.1 hh)))
    rw [if_neg h, e]
    norm_num

/-- One masked exponential of the reference, at row r and column k, is the spec's entry. -/
private theorem v27_entry (r k : Fin 8192) :
    val_main_v27 (F := Ideal) x0 x1 (ix2 r k) = Cert.Spec.entR (Cert.Spec.stack (normR x0) (normR x1)) r k := by
  rw [val_main_v27_apply, val_main_v23_apply, val_main_v22_apply, val_main_cst_1_apply, val_main_v21_apply,
    val_main_v20_apply, val_main_v19_apply, val_main_v16_apply, val_main_v17_apply, val_main_v18_apply,
    val_main_c_apply, val_main_v26_apply, val_main_v25_apply, val_main_v24_apply, val_main_cst_2_apply, sim_eq]
  unfold Cert.Spec.entR
  simp only [Ideal.mulf_def, Ideal.subf_def, Ideal.hostUnary_exp_def, Ideal.hostDivf_def, Ideal.ofBits_def,
    Cert.Spec.ofBits_one, Cert.Spec.ofBits_half]
  show ((1 : EReal) - (((IntOp.cmpi .eq (IntOp.addi (BitVec.ofNat 32 r.val) 0#32) (BitVec.ofNat 32 k.val)).toNat : ℝ) : EReal)) * _ = _
  rw [diag_word]

theorem ref_den (r : Fin 8192) :
    val_main_v28 (F := Ideal) x0 x1 (ix1 r) = Cert.Spec.denomR (Cert.Spec.stack (normR x0) (normR x1)) r := by
  rw [val_main_v28_apply, val_main_cst_3_apply, Ideal.ofBits_def, Ideal.ofBits_zero_f32]
  unfold Cert.Spec.denomR
  refine congrArg (0 + ·) (Finset.sum_congr rfl fun k _ => ?_)
  have e : idx_main_v28 (ix1 r) k = ix2 r k :=
    funext fun a => Fin.ext (by match a with | ⟨0, _⟩ => rfl | ⟨1, _⟩ => rfl)
  rw [e]
  exact v27_entry x0 x1 r k

end Cert.ReferenceIdeal.Val

end
-- ==== Proof.Value.RefValue.lean ====
/-
  The reference program's result at the ideal values: the loss of positives and denominators that are, entry by entry, the
  spec's, over the normalised rows of the two arguments.
-/
import proofs.«114107_j32023276159237_1_alg».proof.Proof.Value.RefPos
import proofs.«114107_j32023276159237_1_alg».proof.Proof.Value.RefDen

set_option maxRecDepth 16384

noncomputable section

namespace Cert.ReferenceIdeal.Val

open Cert.ReferenceIdeal Cert.ReferenceIdeal.Gen Cert.ReferenceIdeal.Value Cert.ReferenceIdeal.Read
open Idealize.ShloMosaic Idealize.ShloMosaic.TcCoe Idealize.ShloMosaic.ValueIdx
open Idealize.SL Idealize.SL.Sem

variable (m : (ℓ : Loc nD τ sig) → Buf (Elt Ideal) ℓ)

/-- The reference's result is the loss of its positives and its denominators (the last eight host operations, unfolded
    once against `tailR`). -/
theorem res_eq_tail (x0 x1 : (⟨S4096x256, .f32⟩ : BufTy).Contents (Elt Ideal)) :
    val_main_v35 (F := Ideal) x0 x1 = tailR (val_main_v15 (F := Ideal) x0 x1) (val_main_v28 (F := Ideal) x0 x1) := by
  unfold val_main_v35 val_main_v34 val_main_v33 val_main_v32 val_main_v31 val_main_v30 val_main_v29 val_main_cst_4 val_main_cst_5
    val_main_cst_6 tailR
  rfl

theorem ref_result (c : Dev nD) :
    ∃ pos den : FVec Ideal S8192 .f32,
      res_main_v35 (F := Ideal) m c = tailR pos den
      ∧ (∀ r : Fin 8192, 0 + pos (ix1 r) = Cert.Spec.posSpec (normR (m ((c.tc : Thread nD τ).loc main_arg0))) (normR (m ((c.tc : Thread nD τ).loc main_arg1))) r)
      ∧ (∀ r : Fin 8192, den (ix1 r) = Cert.Spec.denomR (Cert.Spec.stack (normR (m ((c.tc : Thread nD τ).loc main_arg0))) (normR (m ((c.tc : Thread nD τ).loc main_arg1)))) r) := by
  refine ⟨_, _, (val_main_v35_eq m c).trans (res_eq_tail _ _), fun r => ref_pos _ _ r, fun r => ref_den _ _ r⟩

end Cert.ReferenceIdeal.Val

end
-- ==== Proof.lean ====
/-
  The certificate of the contrastive-loss kernel against its jnp reference, over the extended reals.

  Both programs normalise the rows of the query and the positive matrix, stack them into z (8192 x 256) and return the mean
  over the rows r of  -(p_r / (1/2) - log d_r),  where p_r is the dot product of query row r mod 4096 with positive row
  r mod 4096 and d_r the sum over the columns c ≠ r of exp (2 <z_r, z_c>).
  The kernel program computes p directly on the host and d in one Pallas kernel on a 16 x 16 grid of 512 x 512 tiles
  (an accumulator cleared at the first column block, written out at the last); the reference forms the whole
  8192 x 8192 similarity matrix, reads p off its two off-diagonals and sums the masked exponentials row by row.
  The three frames: each program terminates, faults nowhere and leaves its arguments unchanged (the kernel programs
  by the pipeline's launch with the body run in its three control cases; the reference by its run).
  The value claim: the two results are one extended real — entry by entry the tile's select-zero is the reference's
  (1 - [r = c]) factor, x * 2 is x / (1/2), and sixteen blockwise partial sums from zero are the one row sum; the
  off-diagonal (r, r ± 4096) of the similarity matrix is the row-wise dot product. Nothing needs finiteness.
-/
import proofs.«114107_j32023276159237_1_alg».proof.Defs
import proofs.«114107_j32023276159237_1_alg».proof.Proof.Gen.Kernel
import proofs.«114107_j32023276159237_1_alg».proof.Proof.Gen.KernelIdeal
import proofs.«114107_j32023276159237_1_alg».proof.Proof.Gen.ReferenceIdeal
import proofs.«114107_j32023276159237_1_alg».proof.Proof.Gen.Pre_finite_inputs
import proofs.«114107_j32023276159237_1_alg».proof.Proof.FrameKernel.Frame
import proofs.«114107_j32023276159237_1_alg».proof.Proof.FrameKernelIdeal.Frame
import proofs.«114107_j32023276159237_1_alg».proof.Proof.Value.KernelValue
import proofs.«114107_j32023276159237_1_alg».proof.Proof.Value.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The two programs normalise rows by one and the same chain of host operations. -/
theorem norm_eq (x : FVec Ideal Cert.KernelIdeal.S4096x256 .f32) :
    Cert.ReferenceIdeal.Val.normR x = Cert.KernelIdeal.Val.normK x := rfl

/-- And compute the loss from positives and denominators by one and the same chain. -/
theorem tail_eq (pos den : FVec Ideal Cert.KernelIdeal.S8192 .f32) :
    Cert.ReferenceIdeal.Val.tailR pos den = Cert.KernelIdeal.Val.tailK pos den := rfl

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the same loss: positives and denominators agree entry by entry. -/
theorem algebraic : Cert.algebraic_KernelIdeal_ReferenceIdeal := by
  intro m ρ m' ρ' _ hagree
  refine ⟨fun c => Cert.KernelIdeal.Hand.resultOf (F := Ideal) m c, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨posK, denK, hK, hposK, hdenK⟩ := Cert.KernelIdeal.Val.kernel_result m c
  obtain ⟨posR, denR, hR, hposR, hdenR⟩ := Cert.ReferenceIdeal.Val.ref_result m' c
  have hpos : posR = posK := funext fun i => by
    obtain ⟨r, rfl⟩ : ∃ r : Fin 8192, i = ix1 r := ⟨i 0, eq_ix1 i⟩
    have h1 := hposR r
    rw [zero_add, (hagree c).1, (hagree c).2.1] at h1
    exact h1.trans (hposK r).symm
  have hden : denR = denK := funext fun i => by
    obtain ⟨r, rfl⟩ : ∃ r : Fin 8192, i = ix1 r := ⟨i 0, eq_ix1 i⟩
    have h1 := hdenR r
    rw [(hagree c).1, (hagree c).2.1, ← Cert.Spec.denomK_eq_denomR] at h1
    exact h1.trans (hdenK r).symm
  rw [hR, hpos, hden]
  exact (tail_eq posK denK).trans hK.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
